-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x768 : Shape := ⟨3, ![1, 4096, 768]⟩
abbrev S1x1x1x4096 : Shape := ⟨4, ![1, 1, 1, 4096]⟩
abbrev S768x768 : Shape := ⟨2, ![768, 768]⟩
abbrev S768 : Shape := ⟨1, ![768]⟩
abbrev S_ : Shape := ⟨0, ![]⟩

class Facts : Prop where
  bcast_S_S1x4096x768 : S_.BroadcastsInDim S1x4096x768 (![] : Fin 0 → Fin S1x4096x768.rank)
  reducesTo_S1x4096x768_S_d0_1_2 : S1x4096x768.ReducesTo [0, 1, 2] S_
  h_S_ : 0 < S_.numel
  bcast_S_S1x1x1x4096 : S_.BroadcastsInDim S1x1x1x4096 (![] : Fin 0 → Fin S1x1x1x4096.rank)
  reducesTo_S1x1x1x4096_S_d0_1_2_3 : S1x1x1x4096.ReducesTo [0, 1, 2, 3] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  main_v38

def fn_part1 {F : FTy → Type} [FloatOps F] (main_arg4 : FVec F S768x768 .f32) (main_arg5 : FVec F S768 .f32) (main_arg6 : FVec F S768x768 .f32) (main_arg7 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768x768 .f32 := Host.absf main_arg6
  let main_cst_10 : FVec F S_ .f32 := constant S_ .f32 0x7F800000#32
  let main_v30 : FVec F S768x768 .f32 := broadcastInDim S768x768 ![] bcast_S_S768x768 main_cst_10
  let main_v31 : IVec S768x768 1 := cmpf .olt main_v29 main_v30
  let main_c_11 : IVec S_ 1 := constantI S_ 1 1#1
  let main_v32 : IVec S_ 1 := (fun x v => Host.reduce IntOp.andi x v reducesTo_S768x768_S_d0_1 h_S_) main_v31 main_c_11
  let main_v33 : IVec S_ 1 := andi main_v28 main_v32
  fn_part2 (F := F) main_arg7 main_v33

def fn {F : FTy → Type} [FloatOps F] (main_arg0 : FVec F S1x4096x768 .f32) (main_arg1 : FVec F S1x1x1x4096 .f32) (main_arg2 : FVec F S768x768 .f32) (main_arg3 : FVec F S768 .f32) (main_arg4 : FVec F S768x768 .f32) (main_arg5 : FVec F S768 .f32) (main_arg6 : FVec F S768x768 .f32) (main_arg7 : FVec F S768 .f32) : IVec S_ 1 :=
  let main_v0 : FVec F S1x4096x768 .f32 := Host.absf main_arg0
  let main_cst : FVec F S_ .f32 := constant S_ .f32 0x7F800000#32
  let main_v1 : FVec F S1x4096x768 .f32 := broadcastInDim S1x4096x768 ![] bcast_S_S1x4096x768 main_cst
  let main_v2 : IVec S1x4096x768 1 := cmpf .olt main_v0 main_v1
  let main_c : IVec S_ 1 := constantI S_ 1 1#1
  let main_v3 : IVec S_ 1 := (fun x v => Host.reduce IntOp.andi x v reducesTo_S1x4096x768_S_d0_1_2 h_S_) main_v2 main_c
  let main_v4 : FVec F S1x1x1x4096 .f32 := Host.absf main_arg1
  let main_cst_0 : FVec F S_ .f32 := constant S_ .f32 0x7F800000#32
  let main_v5 : FVec F S1x1x1x4096 .f32 := broadcastInDim S1x1x1x4096 ![] bcast_S_S1x1x1x4096 main_cst_0
  let main_v6 : IVec S1x1x1x4096 1 := cmpf .olt main_v4 main_v5
  let main_c_1 : IVec S_ 1 := constantI S_ 1 1#1
  let main_v7 : IVec S_ 1 := (fun x v => Host.reduce IntOp.andi x v reducesTo_S1x1x1x4096_S_d0_1_2_3 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_v13 main_v16
-- ==== Kernel.lean ====
abbrev S1x4096x768 : Shape := ⟨3, ![1, 4096, 768]⟩
abbrev S1x1x1x4096 : Shape := ⟨4, ![1, 1, 1, 4096]⟩
abbrev S768x768 : Shape := ⟨2, ![768, 768]⟩
abbrev S768 : Shape := ⟨1, ![768]⟩
abbrev S4096x768 : Shape := ⟨2, ![4096, 768]⟩
abbrev S768x2304 : Shape := ⟨2, ![768, 2304]⟩
abbrev S2304 : Shape := ⟨1, ![2304]⟩
abbrev S1x2304 : Shape := ⟨2, ![1, 2304]⟩
abbrev S12x4096x64 : Shape := ⟨3, ![12, 4096, 64]⟩
abbrev S512x768 : Shape := ⟨2, ![512, 768]⟩
abbrev S12x512x64 : Shape := ⟨3, ![12, 512, 64]⟩
abbrev S512x2304 : Shape := ⟨2, ![512, 2304]⟩
abbrev S512x12x64 : Shape := ⟨3, ![512, 12, 64]⟩
abbrev S1x4096 : Shape := ⟨2, ![1, 4096]⟩
abbrev S2x256x64 : Shape := ⟨3, ![2, 256, 64]⟩
abbrev S2x4096x64 : Shape := ⟨3, ![2, 4096, 64]⟩
abbrev S256x128 : Shape := ⟨2, ![256, 128]⟩
abbrev S2x256x4096 : Shape := ⟨3, ![2, 256, 4096]⟩
abbrev S1x1x4096 : Shape := ⟨3, ![1, 1, 4096]⟩
abbrev S2x256 : Shape := ⟨2, ![2, 256]⟩
abbrev S2x256x1 : Shape := ⟨3, ![2, 256, 1]⟩
abbrev S1x256x64 : Shape := ⟨3, ![1, 256, 64]⟩
abbrev S256x64 : Shape := ⟨2, ![256, 64]⟩

abbrev nBuf : Space → Nat
  | .hbm => 19
  | .vmem => 19
  | .smem => 0
  | _ => 0

abbrev bufTy : (tb : Table) → Fin (tcTables nBuf tb) → BufTy
  | .hbm, ⟨0, _⟩ => ⟨S1x4096x768, .f32⟩
  | .hbm, ⟨1, _⟩ => ⟨S1x1x1x4096, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S4096x768, .f32⟩
  | .hbm, ⟨9, _⟩ => ⟨S768x2304, .f32⟩
  | .hbm, ⟨10, _⟩ => ⟨S768x2304, .bf16⟩
  | .hbm, ⟨11, _⟩ => ⟨S2304, .f32⟩
  | .hbm, ⟨12, _⟩ => ⟨S1x2304, .f32⟩
  | .hbm, ⟨13, _⟩ => ⟨S12x4096x64, .bf16⟩
  | .hbm, ⟨14, _⟩ => ⟨S12x4096x64, .bf16⟩
  | .hbm, ⟨15, _⟩ => ⟨S12x4096x64, .bf16⟩
  | .hbm, ⟨16, _⟩ => ⟨S1x4096, .f32⟩
  | .hbm, ⟨17, _⟩ => ⟨S4096x768, .f32⟩
  | .hbm, ⟨18, _⟩ => ⟨S1x4096x768, .f32⟩
  | .local _ .vmem, ⟨0, _⟩ => ⟨S512x768, .f32⟩
  | .local _ .vmem, ⟨1, _⟩ => ⟨S512x768, .f32⟩
  | .local _ .vmem, ⟨2, _⟩ => ⟨S768x2304, .bf16⟩
  | .local _ .vmem, ⟨3, _⟩ => ⟨S1x2304, .f32⟩
  | .local _ .vmem, ⟨4, _⟩ => ⟨S12x512x64, .bf16⟩
  | .local _ .vmem, ⟨5, _⟩ => ⟨S12x512x64, .bf16⟩
  | .local _ .vmem, ⟨6, _⟩ => ⟨S12x512x64, .bf16⟩
  | .local _ .vmem, ⟨7, _⟩ => ⟨S12x512x64, .bf16⟩
  | .local _ .vmem, ⟨8, _⟩ => ⟨S12x512x64, .bf16⟩
  | .local _ .vmem, ⟨9, _⟩ => ⟨S12x512x64, .bf16⟩
  | .local _ .vmem, ⟨10, _⟩ => ⟨S2x256x64, .bf16⟩
  | .local _ .vmem, ⟨11, _⟩ => ⟨S2x256x64, .bf16⟩
  | .local _ .vmem, ⟨12, _⟩ => ⟨S2x4096x64, .bf16⟩
  | .local _ .vmem, ⟨13, _⟩ => ⟨S2x4096x64, .bf16⟩
  | .local _ .vmem, ⟨14, _⟩ => ⟨S2x4096x64, .bf16⟩
  | .local _ .vmem, ⟨15, _⟩ => ⟨S2x4096x64, .bf16⟩
  | .local _ .vmem, ⟨16, _⟩ => ⟨S1x4096, .f32⟩
  | .local _ .vmem, ⟨17, _⟩ => ⟨S256x128, .f32⟩
  | .local _ .vmem, ⟨18, _⟩ => ⟨S256x128, .f32⟩
  | _, _ => ⟨S1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S12x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S12x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S12x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![6, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S2x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S1x4096x768_S4096x768 : S1x4096x768.ShapeCasts S4096x768
  concatenates_S768x768_S768x768_S768x768_S768x2304_d1 : Shape.Concatenates [S768x768, S768x768, S768x768] S768x2304 1
  bitsLt_bf16_f32 : FTy.bits .bf16 < FTy.bits .f32
  concatenates_S768_S768_S768_S2304_d0 : Shape.Concatenates [S768, S768, S768] S2304 0
  shapeCasts_S2304_S1x2304 : S2304.ShapeCasts S1x2304
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S512x2304 : S1x2304.Broadcasts S512x2304
  slices_S512x2304_o0_0_S512x768 : S512x2304.Slices ![0, 0] S512x768
  shapeCasts_S512x768_S512x12x64 : S512x768.ShapeCasts S512x12x64
  transposes_S512x12x64_p1_0_2_S12x512x64 : S512x12x64.Transposes [1, 0, 2] S12x512x64
  inb_S12x512x64_S12x512x64_0_0_0 : ∀ a, (![0, 0, 0] : Fin 3 → Nat) a + S12x512x64.size a ≤ S12x512x64.size a
  h_S12x512x64 : 0 < S12x512x64.numel
  packedbf16_S12x512x64_S12x512x64_0_0_0 : (Rect.unit (s := S12x512x64) ![0, 0, 0] S12x512x64.size inb_S12x512x64_S12x512x64_0_0_0).PackedRows (EltTy.packing .bf16)
  slices_S512x2304_o0_768_S512x768 : S512x2304.Slices ![0, 768] S512x768
  slices_S512x2304_o0_1536_S512x768 : S512x2304.Slices ![0, 1536] S512x768
  shapeCasts_S1x1x1x4096_S1x4096 : S1x1x1x4096.ShapeCasts S1x4096
  inb_S2x256x64_S2x256x64_0_0_0 : ∀ a, (![0, 0, 0] : Fin 3 → Nat) a + S2x256x64.size a ≤ S2x256x64.size a
  h_S2x256x64 : 0 < S2x256x64.numel
  shapeCasts_S2x256x64_S2x256x64 : S2x256x64.ShapeCasts S2x256x64
  inb_S2x4096x64_S2x4096x64_0_0_0 : ∀ a, (![0, 0, 0] : Fin 3 → Nat) a + S2x4096x64.size a ≤ S2x4096x64.size a
  h_S2x4096x64 : 0 < S2x4096x64.numel
  shapeCasts_S2x4096x64_S2x4096x64 : S2x4096x64.ShapeCasts S2x4096x64
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  shapeCasts_S1x4096_S1x1x4096 : S1x4096.ShapeCasts S1x1x4096
  broadcasts_S1x1x4096_S2x256x4096 : S1x1x4096.Broadcasts S2x256x4096
  reduces_S2x256x4096_S2x256 : S2x256x4096.Reduces [2] S2x256
  shapeCasts_S2x256_S2x256x1 : S2x256.ShapeCasts S2x256x1
  broadcasts_S2x256x1_S2x256x4096 : S2x256x1.Broadcasts S2x256x4096
  slices_S2x256x64_o0_0_0_S1x256x64 : S2x256x64.Slices ![0, 0, 0] S1x256x64
  shapeCasts_S1x256x64_S256x64 : S1x256x64.ShapeCasts S256x64
  slices_S2x256x64_o1_0_0_S1x256x64 : S2x256x64.Slices ![1, 0, 0] S1x256x64
  concatenates_S256x64_S256x64_S256x128_d1 : Shape.Concatenates [S256x64, S256x64] S256x128 1
  inb_S256x128_S256x128_0_0 : ∀ a, (![0, 0] : Fin 2 → Nat) a + S256x128.size a ≤ S256x128.size a
  h_S256x128 : 0 < S256x128.numel
  shapeCasts_S4096x768_S1x4096x768 : S4096x768.ShapeCasts S1x4096x768
  dot_S512x768_S768x2304_S512x2304_1_0_0_1_n_n_wf : DotDims.WF S512x768 S768x2304 S512x2304 [1] [0] [0] [1] [] []
  dot_S2x256x64_S2x4096x64_S2x256x4096_2_2_1_1_0_0_wf : DotDims.WF S2x256x64 S2x4096x64 S2x256x4096 [2] [2] [1] [1] [0] [0]
  dot_S2x256x4096_S2x4096x64_S2x256x64_2_1_1_2_0_0_wf : DotDims.WF S2x256x4096 S2x4096x64 S2x256x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S4096x768.size a
  hwx0_0 : ∀ i : grid0.Coords, EltTy.bits .f32 = 32 ∨ (Rect.block (s := S4096x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S12x512x64.size a ≤ S12x4096x64.size a
  hwx0_3 : ∀ i : grid0.Coords, EltTy.bits .bf16 = 32 ∨ (Rect.block (s := S12x4096x64) S12x512x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S12x512x64.size a ≤ S12x4096x64.size a
  hwx0_4 : ∀ i : grid0.Coords, EltTy.bits .bf16 = 32 ∨ (Rect.block (s := S12x4096x64) S12x512x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S12x512x64.size a ≤ S12x4096x64.size a
  hwx0_5 : ∀ i : grid0.Coords, EltTy.bits .bf16 = 32 ∨ (Rect.block (s := S12x4096x64) S12x512x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x256x64.size a ≤ S12x4096x64.size a
  hwx1_0 : ∀ i : grid1.Coords, EltTy.bits .bf16 = 32 ∨ (Rect.block (s := S12x4096x64) S2x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x4096x64.size a ≤ S12x4096x64.size a
  hwx1_1 : ∀ i : grid1.Coords, EltTy.bits .bf16 = 32 ∨ (Rect.block (s := S12x4096x64) S2x4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x4096x64.size a ≤ S12x4096x64.size a
  hwx1_2 : ∀ i : grid1.Coords, EltTy.bits .bf16 = 32 ∨ (Rect.block (s := S12x4096x64) S2x4096x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S4096x768.size a
  hwx1_4 : ∀ i : grid1.Coords, EltTy.bits .f32 = 32 ∨ (Rect.block (s := S4096x768) S256x128.size (cc1_transform_4 i) (hinb1_4 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S2x256x64_S2x4096x64_S2x256x4096_2_2_1_1_0_0 : DotDims S2x256x64 S2x4096x64 S2x256x4096 where
  lhsContracting := [2]
  rhsContracting := [2]
  lhsNonContracting := [1]
  rhsNonContracting := [1]
  lhsBatch := [0]
  rhsBatch := [0]
  wf := dot_S2x256x64_S2x4096x64_S2x256x4096_2_2_1_1_0_0_wf
def dot_S2x256x4096_S2x4096x64_S2x256x64_2_1_1_2_0_0 : DotDims S2x256x4096 S2x4096x64 S2x256x64 where
  lhsContracting := [2]
  rhsContracting := [1]
  lhsNonContracting := [1]
  rhsNonContracting := [2]
  lhsBatch := [0]
  rhsBatch := [0]
  wf := dot_S2x256x4096_S2x4096x64_S2x256x64_2_1_1_2_0_0_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S12x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S12x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S12x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5_0) S2x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S2x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_2) S2x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S256x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x4096x768 : Shape := ⟨3, ![1, 4096, 768]⟩
abbrev S1x1x1x4096 : Shape := ⟨4, ![1, 1, 1, 4096]⟩
abbrev S768x768 : Shape := ⟨2, ![768, 768]⟩
abbrev S768 : Shape := ⟨1, ![768]⟩
abbrev S1x1x768 : Shape := ⟨3, ![1, 1, 768]⟩
abbrev S1x4096x12x64 : Shape := ⟨4, ![1, 4096, 12, 64]⟩
abbrev S1x12x4096x64 : Shape := ⟨4, ![1, 12, 4096, 64]⟩
abbrev S1x12x4096x4096 : Shape := ⟨4, ![1, 12, 4096, 4096]⟩
abbrev S_ : Shape := ⟨0, ![]⟩
abbrev S1x12x4096 : Shape := ⟨3, ![1, 12, 4096]⟩
abbrev S1x12x4096x1 : Shape := ⟨4, ![1, 12, 4096, 1]⟩

abbrev nBuf : Space → Nat
  | .hbm => 49
  | .vmem => 0
  | .smem => 0
  | _ => 0

abbrev bufTy : (tb : Table) → Fin (tcTables nBuf tb) → BufTy
  | .hbm, ⟨0, _⟩ => ⟨S1x4096x768, .f32⟩
  | .hbm, ⟨1, _⟩ => ⟨S1x1x1x4096, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S1x4096x768, .f32⟩
  | .hbm, ⟨9, _⟩ => ⟨S1x1x768, .f32⟩
  | .hbm, ⟨10, _⟩ => ⟨S1x4096x768, .f32⟩
  | .hbm, ⟨11, _⟩ => ⟨S1x4096x768, .f32⟩
  | .hbm, ⟨12, _⟩ => ⟨S1x4096x12x64, .f32⟩
  | .hbm, ⟨13, _⟩ => ⟨S1x12x4096x64, .f32⟩
  | .hbm, ⟨14, _⟩ => ⟨S1x4096x768, .f32⟩
  | .hbm, ⟨15, _⟩ => ⟨S1x1x768, .f32⟩
  | .hbm, ⟨16, _⟩ => ⟨S1x4096x768, .f32⟩
  | .hbm, ⟨17, _⟩ => ⟨S1x4096x768, .f32⟩
  | .hbm, ⟨18, _⟩ => ⟨S1x4096x12x64, .f32⟩
  | .hbm, ⟨19, _⟩ => ⟨S1x12x4096x64, .f32⟩
  | .hbm, ⟨20, _⟩ => ⟨S1x4096x768, .f32⟩
  | .hbm, ⟨21, _⟩ => ⟨S1x1x768, .f32⟩
  | .hbm, ⟨22, _⟩ => ⟨S1x4096x768, .f32⟩
  | .hbm, ⟨23, _⟩ => ⟨S1x4096x768, .f32⟩
  | .hbm, ⟨24, _⟩ => ⟨S1x4096x12x64, .f32⟩
  | .hbm, ⟨25, _⟩ => ⟨S1x12x4096x64, .f32⟩
  | .hbm, ⟨26, _⟩ => ⟨S1x12x4096x4096, .f32⟩
  | .hbm, ⟨27, _⟩ => ⟨S_, .f32⟩
  | .hbm, ⟨28, _⟩ => ⟨S1x12x4096x4096, .f32⟩
  | .hbm, ⟨29, _⟩ => ⟨S1x12x4096x4096, .f32⟩
  | .hbm, ⟨30, _⟩ => ⟨S1x12x4096x4096, .f32⟩
  | .hbm, ⟨31, _⟩ => ⟨S1x12x4096x4096, .f32⟩
  | .hbm, ⟨32, _⟩ => ⟨S_, .f32⟩
  | .hbm, ⟨33, _⟩ => ⟨S1x12x4096, .f32⟩
  | .hbm, ⟨34, _⟩ => ⟨S_, .f32⟩
  | .hbm, ⟨35, _⟩ => ⟨S1x12x4096, .f32⟩
  | .hbm, ⟨36, _⟩ => ⟨S1x12x4096, .f32⟩
  | .hbm, ⟨37, _⟩ => ⟨S1x12x4096x1, .f32⟩
  | .hbm, ⟨38, _⟩ => ⟨S1x12x4096x4096, .f32⟩
  | .hbm, ⟨39, _⟩ => ⟨S1x12x4096x4096, .f32⟩
  | .hbm, ⟨40, _⟩ => ⟨S1x12x4096x4096, .f32⟩
  | .hbm, ⟨41, _⟩ => ⟨S_, .f32⟩
  | .hbm, ⟨42, _⟩ => ⟨S1x12x4096, .f32⟩
  | .hbm, ⟨43, _⟩ => ⟨S1x12x4096x1, .f32⟩
  | .hbm, ⟨44, _⟩ => ⟨S1x12x4096x4096, .f32⟩
  | .hbm, ⟨45, _⟩ => ⟨S1x12x4096x4096, .f32⟩
  | .hbm, ⟨46, _⟩ => ⟨S1x12x4096x64, .f32⟩
  | .hbm, ⟨47, _⟩ => ⟨S1x4096x12x64, .f32⟩
  | .hbm, ⟨48, _⟩ => ⟨S1x4096x768, .f32⟩
  | _, _ => ⟨S1x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S1x4096x768_0_1_2 : S1x1x768.BroadcastsInDim S1x4096x768 (![0, 1, 2] : Fin 3 → Fin S1x4096x768.rank)
  shapeCasts_S1x4096x768_S1x4096x12x64 : S1x4096x768.ShapeCasts S1x4096x12x64
  transposes_S1x4096x12x64_S1x12x4096x64_0_2_1_3 : S1x4096x12x64.Transposes [0, 2, 1, 3] S1x12x4096x64
  bcast_S_S1x12x4096x4096 : S_.BroadcastsInDim S1x12x4096x4096 (![] : Fin 0 → Fin S1x12x4096x4096.rank)
  bcast_S1x1x1x4096_S1x12x4096x4096_0_1_2_3 : S1x1x1x4096.BroadcastsInDim S1x12x4096x4096 (![0, 1, 2, 3] : Fin 4 → Fin S1x12x4096x4096.rank)
  reducesTo_S1x12x4096x4096_S1x12x4096_d3 : S1x12x4096x4096.ReducesTo [3] S1x12x4096
  h_S_ : 0 < S_.numel
  bcast_S_S1x12x4096 : S_.BroadcastsInDim S1x12x4096 (![] : Fin 0 → Fin S1x12x4096.rank)
  bcast_S1x12x4096_S1x12x4096x1_0_1_2 : S1x12x4096.BroadcastsInDim S1x12x4096x1 (![0, 1, 2] : Fin 3 → Fin S1x12x4096x1.rank)
  bcast_S1x12x4096x1_S1x12x4096x4096_0_1_2_3 : S1x12x4096x1.BroadcastsInDim S1x12x4096x4096 (![0, 1, 2, 3] : Fin 4 → Fin S1x12x4096x4096.rank)
  transposes_S1x12x4096x64_S1x4096x12x64_0_2_1_3 : S1x12x4096x64.Transposes [0, 2, 1, 3] S1x4096x12x64
  shapeCasts_S1x4096x12x64_S1x4096x768 : S1x4096x12x64.ShapeCasts S1x4096x768
  dot_S1x4096x768_S768x768_S1x4096x768_2_0_01_1_n_n_wf : DotDims.WF S1x4096x768 S768x768 S1x4096x768 [2] [0] [0, 1] [1] [] []
  dot_S1x12x4096x64_S1x12x4096x64_S1x12x4096x4096_3_3_2_2_01_01_wf : DotDims.WF S1x12x4096x64 S1x12x4096x64 S1x12x4096x4096 [3] [3] [2] [2] [0, 1] [0, 1]
  dot_S1x12x4096x4096_S1x12x4096x64_S1x12x4096x64_3_2_2_3_01_01_wf : DotDims.WF S1x12x4096x4096 S1x12x4096x64 S1x12x4096x64 [3] [2] [2] [3] [0, 1] [0, 1]

variable [Facts₀]

def dot_S1x4096x768_S768x768_S1x4096x768_2_0_01_1_n_n : DotDims S1x4096x768 S768x768 S1x4096x768 where
  lhsContracting := [2]
  rhsContracting := [0]
  lhsNonContracting := [0, 1]
  rhsNonContracting := [1]
  lhsBatch := []
  rhsBatch := []
  wf := dot_S1x4096x768_S768x768_S1x4096x768_2_0_01_1_n_n_wf
def dot_S1x12x4096x64_S1x12x4096x64_S1x12x4096x4096_3_3_2_2_01_01 : DotDims S1x12x4096x64 S1x12x4096x64 S1x12x4096x4096 where
  lhsContracting := [3]
  rhsContracting := [3]
  lhsNonContracting := [2]
  rhsNonContracting := [2]
  lhsBatch := [0, 1]
  rhsBatch := [0, 1]
  wf := dot_S1x12x4096x64_S1x12x4096x64_S1x12x4096x4096_3_3_2_2_01_01_wf
def dot_S1x12x4096x4096_S1x12x4096x64_S1x12x4096x64_3_2_2_3_01_01 : DotDims S1x12x4096x4096 S1x12x4096x64 S1x12x4096x64 where
  lhsContracting := [3]
  rhsContracting := [2]
  lhsNonContracting := [2]
  rhsNonContracting := [3]
  lhsBatch := [0, 1]
  rhsBatch := [0, 1]
  wf := dot_S1x12x4096x4096_S1x12x4096x64_S1x12x4096x64_3_2_2_3_01_01_wf

class Facts : Prop extends Facts₀ where

variable [Facts]
-- ==== Proof.KRegion0.lean ====
/-
  The projection kernel (the first of the program's two kernel regions), read at the contents `V` the
  TensorCore's buffers hold when the region is entered.  At grid point `t` the body loads the whole block of rows
  `512·t … 512·t+511` of the activations, the whole concatenated weight and the bias row, forms
  `rows · weight + bias` (narrowed to the storage format) and stores its three column bands, each re-laid head-major,
  into the three output blocks.  This module states what each staging buffer holds after the body (the input blocks
  unchanged, each output the canon of its one whole-block store), proves the body's triple by symbolic execution,
  and packages it as the pipeline's proof data and body obligation.
-/
import proofs.«428411_j45337674777147_3_alg».proof.Proof.Gen.Kernel.Launch
import proofs.«428411_j45337674777147_3_alg».proof.Proof.Gen.Kernel.Skeleton
import proofs.«428411_j45337674777147_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and store is of a whole staging buffer -/

abbrev rX0 : Rect S512x768 := Rect.unit (s := S512x768) ![0, 0] S512x768.size inb_S512x768_S512x768_0_0
abbrev rW0 : Rect S768x2304 := Rect.unit (s := S768x2304) ![0, 0] S768x2304.size inb_S768x2304_S768x2304_0_0
abbrev rB0 : Rect S1x2304 := Rect.unit (s := S1x2304) ![0, 0] S1x2304.size inb_S1x2304_S1x2304_0_0
abbrev rO0 : Rect S12x512x64 := Rect.unit (s := S12x512x64) ![0, 0, 0] S12x512x64.size inb_S12x512x64_S12x512x64_0_0_0

/-! ## What the body leaves in each output window's buffer -/

/-- The query block: the first column band of `rows · weight + bias`, head-major. -/
def out0_3 (x0 : Vec F S512x768 .f32) (x1 : Vec F S768x2304 .bf16) (x2 : Vec F S1x2304 .f32) : Vec F S12x512x64 .bf16 :=
  View.canon [⟨rO0, k0_pay2 (View.ld x0 rX0) (View.ld x1 rW0) (View.ld x2 rB0)⟩]
/-- The key block: the second column band. -/
def out0_4 (x0 : Vec F S512x768 .f32) (x1 : Vec F S768x2304 .bf16) (x2 : Vec F S1x2304 .f32) : Vec F S12x512x64 .bf16 :=
  View.canon [⟨rO0, k0_pay3 (View.ld x0 rX0) (View.ld x1 rW0) (View.ld x2 rB0)⟩]
/-- The value block: the third column band. -/
def out0_5 (x0 : Vec F S512x768 .f32) (x1 : Vec F S768x2304 .bf16) (x2 : Vec F S1x2304 .f32) : Vec F S12x512x64 .bf16 :=
  View.canon [⟨rO0, k0_pay4 (View.ld x0 rX0) (View.ld x1 rW0) (View.ld x2 rB0)⟩]

/-- One whole-buffer store covers the buffer. -/
theorem cover0_O (p0 : Vec F S12x512x64 .bf16) (y : S12x512x64.Idx) :
    ∃ pc ∈ ([⟨rO0, p0⟩] : List (View.Piece (Elt F) S12x512x64 .bf16)), y ∈ pc.1.set :=
  View.cover_of_tiled [⟨rO0, p0⟩] S12x512x64.size (by rfl) y

/-! ## The pipeline's proof data -/

/-- The proof data of the projection pipeline on core `c`: the arrays as the region finds them; after the body at
    point `t` each input's buffer at its block and each output's at its band of the inputs' blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-! ## Each input's buffer holds its block, fetched there or not -/

/-- Input window 0's current staging buffer holds its block at every point, whether or not the pipeline fetched it
    there (unfetched, the block index has not moved since the last fetch), for any proof data whose array is `V`'s and
    whose body leaves the block in place; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not the pipeline fetched it
    there (unfetched, the block index has not moved since the last fetch), for any proof data whose array is `V`'s and
    whose body leaves the block in place; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not the pipeline fetched it
    there (unfetched, the block index has not moved since the last fetch), for any proof data whose array is `V`'s and
    whose body leaves the block in place; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's triple -/

set_option maxHeartbeats 1000000 in
/-- The kernel body on whole staging memrefs, the three inputs' at read contents `x0 x1 x2` and the three outputs' at
    anything, runs to the continuation holding the inputs' as they were and each output's at its column band of
    `rows · weight + bias`: each output buffer is loaded once (the value unused) and then stored whole, so what it
    holds afterwards is the canon of that one store, which covers it. -/
theorem sound_kernel0 (c : Dev nD) (E : Set ℕ) (i : grid0.Coords)
    (arg1 : Memref sig .tc .vmem S512x768 .f32) (harg1 : arg1.IsWhole) (arg2 : Memref sig .tc .vmem S768x2304 .bf16) (harg2 : arg2.IsWhole) (arg3 : Memref sig .tc .vmem S1x2304 .f32) (harg3 : arg3.IsWhole)
    (arg4 : Memref sig .tc .vmem S12x512x64 .bf16) (harg4 : arg4.IsWhole) (arg5 : Memref sig .tc .vmem S12x512x64 .bf16) (harg5 : arg5.IsWhole) (arg6 : Memref sig .tc .vmem S12x512x64 .bf16) (harg6 : arg6.IsWhole)
    (x0 : Vec F S512x768 .f32) (x1 : Vec F S768x2304 .bf16) (x2 : Vec F S1x2304 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E
          (cc0__qkv_proj_kernel i arg1 harg1 arg2 harg2 arg3 harg3 arg4 harg4 arg5 harg5 arg6 harg6) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_O _)
  isplitl [H4]
  · iexists _; isplitr
    swap; · iexact H4
    ipureintro
    exact View.read_writes_eq_canon _ _ _ (cover0_O _)
  iexists _; isplitr
  swap; · iexact H5
  ipureintro
  exact View.read_writes_eq_canon _ _ _ (cover0_O _)

/-! ## The body obligation, at a generic point -/

/-- What the body is called with at point `t`: the invariant, the core's dues, and each window's current staging
    buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: each window's buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the kernel's triple applies at those blocks; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-! ## The body obligation -/

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  The attention kernel (the second kernel region), read at the contents `V` the TensorCore's buffers hold when the
  region is entered.  At grid point (pair p, tile i) the body loads the query block of head pair p and rows
  256·i … 256·i+255, the whole key and value blocks of that pair, and the mask row; per head it forms the scaled
  scores plus mask, their row softmax (maximum, exponential of the difference, row sum, quotient) and the product
  with the values, and stores the two heads' results side by side as one 256 × 128 block.  This module states what
  each staging buffer holds after the body, proves the body's triple by symbolic execution, and packages it as the
  pipeline's proof data and body obligation.
-/
import proofs.«428411_j45337674777147_3_alg».proof.Proof.Gen.Kernel.Launch
import proofs.«428411_j45337674777147_3_alg».proof.Proof.Gen.Kernel.Skeleton
import proofs.«428411_j45337674777147_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block at every point, whether the pipeline fetched it there
    or not (unfetched, the block index has not moved since the last fetch), for any proof data whose array is `V`'s
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

/-- Input window 1's staging buffer holds the window's block at every point, whether the pipeline fetched it there
    or not (unfetched, the block index has not moved since the last fetch), for any proof data whose array is `V`'s
    and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

/-- Input window 2's staging buffer holds the window's block at every point, whether the pipeline fetched it there
    or not (unfetched, the block index has not moved since the last fetch), for any proof data whose array is `V`'s
    and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl)
      (fun t => by rw [hafter]; unfold Dat.blockOf iblk1; rw [hA]; try rfl) t d).trans
    (by unfold Dat.fetched Dat.blockOf iblk1; rw [hA]; try rfl)

/-- Input window 3's staging buffer holds the window's block at every point, whether the pipeline fetched it there
    or not (unfetched, the block index has not moved since the last fetch), for any proof data whose array is `V`'s
    and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl)
      (fun t => by rw [hafter]; unfold Dat.blockOf iblk1; rw [hA]; try rfl) t d).trans
    (by unfold Dat.fetched Dat.blockOf iblk1; rw [hA]; try rfl)

/-! ## The body's accesses: every load and store is of a whole staging buffer -/

abbrev rQ1 : Rect S2x256x64 := Rect.unit (s := S2x256x64) ![0, 0, 0] S2x256x64.size inb_S2x256x64_S2x256x64_0_0_0
abbrev rK1 : Rect S2x4096x64 := Rect.unit (s := S2x4096x64) ![0, 0, 0] S2x4096x64.size inb_S2x4096x64_S2x4096x64_0_0_0
abbrev rM1 : Rect S1x4096 := Rect.unit (s := S1x4096) ![0, 0] S1x4096.size inb_S1x4096_S1x4096_0_0
abbrev rO1 : Rect S256x128 := Rect.unit (s := S256x128) ![0, 0] S256x128.size inb_S256x128_S256x128_0_0

/-! ## What the body leaves in the output window's buffer -/

/-- The context block: the two heads' attention results side by side. -/
def out1_4 (x0 : Vec F S2x256x64 .bf16) (x1 : Vec F S2x4096x64 .bf16) (x2 : Vec F S2x4096x64 .bf16) (x3 : Vec F S1x4096 .f32) : Vec F S256x128 .f32 :=
  View.canon [⟨rO1, k1_pay1 (View.ld x0 rQ1) (View.ld x1 rK1) (View.ld x2 rK1) (View.ld x3 rM1)⟩]

/-- One whole-buffer store covers the buffer. -/
theorem cover1_O (p0 : Vec F S256x128 .f32) (y : S256x128.Idx) :
    ∃ pc ∈ ([⟨rO1, p0⟩] : List (View.Piece (Elt F) S256x128 .f32)), y ∈ pc.1.set :=
  View.cover_of_tiled [⟨rO1, p0⟩] S256x128.size (by rfl) y

/-! ## The body's triple -/

set_option maxHeartbeats 1000000 in
/-- The body on whole staging memrefs, the four inputs' at read contents `x0 … x3` and the output's at anything,
    runs to the continuation holding the inputs' as they were and the output's at the context block of the inputs:
    four whole-buffer loads, one (unused) load of the output buffer, and one whole-buffer store of the payload. -/
theorem sound_kernel1 (c : Dev nD) (E : Set ℕ) (i : grid1.Coords)
    (arg2 : Memref sig .tc .vmem S2x256x64 .bf16) (harg2 : arg2.IsWhole)
    (arg3 : Memref sig .tc .vmem S2x4096x64 .bf16) (harg3 : arg3.IsWhole)
    (arg4 : Memref sig .tc .vmem S2x4096x64 .bf16) (harg4 : arg4.IsWhole)
    (arg5 : Memref sig .tc .vmem S1x4096 .f32) (harg5 : arg5.IsWhole)
    (arg6 : Memref sig .tc .vmem S256x128 .f32) (harg6 : arg6.IsWhole)
    (x0 : Vec F S2x256x64 .bf16) (x1 : Vec F S2x4096x64 .bf16) (x2 : Vec F S2x4096x64 .bf16) (x3 : Vec F S1x4096 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out1_4 x0 x1 x2 x3)) -∗ K ⟨⟩))
      ⊢ wp frame (wpE (defs₀ (F := F)) Variants.none c none) E
          (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_O _)

/-! ## The pipeline's proof data -/

/-- The proof data of the attention pipeline on core `c`: the arrays as the region finds them; after the body at
    point `t` each input's buffer at its block and the output's at the context block of the inputs' blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`: the invariant, the core's tally, and each window's current staging
    memref at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the same, each memref at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the four inputs' memrefs hold their blocks, so the body's triple applies at those
    blocks; the invariant and the core's tally pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole program run, at any float instance: @main is a stretch of host operations (the activations re-laid, the
  three weights concatenated and narrowed, the three biases concatenated), the projection region, one host operation
  (the mask re-laid), the attention region, and one host operation (the result re-laid).  The contents of the
  TensorCore's unscoped buffers are followed through these five items as a fold from the launch memory: a host
  stretch applies its operations, a region leaves its arrays at what its pipeline's write-backs fold to and every
  other buffer as it found it.  Every weakly fair execution terminates, nothing faulting, with EVERY unscoped buffer
  at the last valuation of that fold: the arguments, which no item writes, at their launch contents (the frame),
  and the result at a named term (what the value claim reads).
-/
import proofs.«428411_j45337674777147_3_alg».proof.Proof.Gen.Kernel.Launch
import proofs.«428411_j45337674777147_3_alg».proof.Proof.Gen.Kernel.Skeleton
import proofs.«428411_j45337674777147_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«428411_j45337674777147_3_alg».proof.Proof.Gen.Kernel.Regions
import proofs.«428411_j45337674777147_3_alg».proof.Proof.KRegion0
import proofs.«428411_j45337674777147_3_alg».proof.Proof.KRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between items: a fold through @main -/

/-- Core `c`'s buffers at launch. -/
abbrev W0 : Dev nD → Valuation τ sig (Elt F) := fun c b => (s₀ m ρ).mem ((c : Dev nD), b)
/-- After the first host stretch: what the projection region is entered from. -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- At the projection region's exit: its arrays at what the pipeline leaves (the inputs as entered, each output's
    write-backs folded), every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch: what the attention region is entered from. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the last host stretch: what the program ends with. -/
abbrev W5 : Dev nD → Valuation τ sig (Elt F) := fun c => StableHlo.after hostOps2 (W4 m ρ c)

/-! ### A buffer no item writes ends as launched -/

/-- A buffer that no host stretch writes and that is no array of either region holds its launch contents at the end. -/
theorem W5_keep (c : Dev nD) (b : Ref sig .tc) (h0 : b ∉ hostOps0_W) (h1 : ∀ w, Pipeline.arrRef spec0 w ≠ b)
    (h2 : b ∉ hostOps1_W) (h3 : ∀ w, Pipeline.arrRef spec1 w ≠ b) (h4 : b ∉ hostOps2_W) :
    W5 m ρ c (Proc.devRef .tc b) = m ((c : Thread nD τ).loc b) :=
  (StableHlo.after_of_writes_sub hostOps2 _ hostOps2_writes h4).trans <|
    (W4_of_ne m ρ c b h3).trans <| (StableHlo.after_of_writes_sub hostOps1 _ hostOps1_writes h2).trans <|
    (W2_of_ne m ρ c b h1).trans <| (StableHlo.after_of_writes_sub hostOps0 _ hostOps0_writes h0).trans rfl

theorem W5_main_arg0 (c : Dev nD) : W5 m ρ c (Proc.devRef .tc main_arg0) = m ((c : Thread nD τ).loc main_arg0) :=
  W5_keep m ρ c main_arg0 (by decide) (by decide) (by decide) (by decide) (by decide)
theorem W5_main_arg1 (c : Dev nD) : W5 m ρ c (Proc.devRef .tc main_arg1) = m ((c : Thread nD τ).loc main_arg1) :=
  W5_keep m ρ c main_arg1 (by decide) (by decide) (by decide) (by decide) (by decide)
theorem W5_main_arg2 (c : Dev nD) : W5 m ρ c (Proc.devRef .tc main_arg2) = m ((c : Thread nD τ).loc main_arg2) :=
  W5_keep m ρ c main_arg2 (by decide) (by decide) (by decide) (by decide) (by decide)
theorem W5_main_arg3 (c : Dev nD) : W5 m ρ c (Proc.devRef .tc main_arg3) = m ((c : Thread nD τ).loc main_arg3) :=
  W5_keep m ρ c main_arg3 (by decide) (by decide) (by decide) (by decide) (by decide)
theorem W5_main_arg4 (c : Dev nD) : W5 m ρ c (Proc.devRef .tc main_arg4) = m ((c : Thread nD τ).loc main_arg4) :=
  W5_keep m ρ c main_arg4 (by decide) (by decide) (by decide) (by decide) (by decide)
theorem W5_main_arg5 (c : Dev nD) : W5 m ρ c (Proc.devRef .tc main_arg5) = m ((c : Thread nD τ).loc main_arg5) :=
  W5_keep m ρ c main_arg5 (by decide) (by decide) (by decide) (by decide) (by decide)
theorem W5_main_arg6 (c : Dev nD) : W5 m ρ c (Proc.devRef .tc main_arg6) = m ((c : Thread nD τ).loc main_arg6) :=
  W5_keep m ρ c main_arg6 (by decide) (by decide) (by decide) (by decide) (by decide)
theorem W5_main_arg7 (c : Dev nD) : W5 m ρ c (Proc.devRef .tc main_arg7) = m ((c : Thread nD τ).loc main_arg7) :=
  W5_keep m ρ c main_arg7 (by decide) (by decide) (by decide) (by decide) (by decide)

/-! ## The proof data family and the thread state -/

/-- No pipeline has a prefetched table. -/
abbrev padm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) padm p) c
  | ⟨0, _⟩ => fun c => dat0 (U1 m ρ) c
  | ⟨1, _⟩ => fun c => dat1 (U3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (W5 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W1`, left at `W2`. Its arrays are split
    out of the unscoped buffers and put back at the exit contents; the generator register goes into the pipeline's
    invariant and comes out; nothing is owed; the kernel has no semaphore of its own. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W3`, left at `W4`. Its arrays are split
    out of the unscoped buffers and put back at the exit contents; the generator register goes into the pipeline's
    invariant and comes out; nothing is owed; the kernel has no semaphore of its own. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five items in order. -/
abbrev psegs : List (Pipeline.Seg (pcfgs (F := F)) padm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- After the last host stretch the thread state regroups into the final one beside the core owing nothing. -/
theorem last_chain (c : Dev nD) :
    iprop(StableHlo.held (c : Thread nD τ) (Pipeline.ucRefs τ sig) (W5 m ρ c) ∗ R (F := F) c)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO
/-- @main is the run of those items. -/
theorem main_run (c : Dev nD) : main (F := F) c = Pipeline.Seg.run (psegs m ρ) := (main_chain c).trans (by chain_rfl)

-- the launch theorem's implicit arguments are found by unifying its conclusion with this one, which takes unfolding
-- plain definitions in a metavariable's type
set_option backward.isDefEq.respectTransparency.types false in
/-- THE RUN: from any memory with zero counters every weakly fair execution of @main terminates, nothing faulting, and
    every final state holds every unscoped buffer of every core at the last contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) padm (pdats m ρ) () cellOf_inj emb₁ defs₀ 𝒱₀ L lv m ρ main (psegs m ρ)
    (fun c Q => by rw [main_run m ρ c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME, at any float instance: the run ends with every argument array at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c)⟩) (run_all m ρ)

end Cert.Kernel.Hand

end
-- ==== Proof.Region0.lean ====
/-
  The projection kernel (the first of the program's two kernel regions), read at the contents `V` the
  TensorCore's buffers hold when the region is entered.  At grid point `t` the body loads the whole block of rows
  `512·t … 512·t+511` of the activations, the whole concatenated weight and the bias row, forms
  `rows · weight + bias` (narrowed to the storage format) and stores its three column bands, each re-laid head-major,
  into the three output blocks.  This module states what each staging buffer holds after the body (the input blocks
  unchanged, each output the canon of its one whole-block store), proves the body's triple by symbolic execution,
  and packages it as the pipeline's proof data and body obligation.
-/
import proofs.«428411_j45337674777147_3_alg».proof.Proof.Gen.KernelIdeal.Launch
import proofs.«428411_j45337674777147_3_alg».proof.Proof.Gen.KernelIdeal.Skeleton
import proofs.«428411_j45337674777147_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and store is of a whole staging buffer -/

abbrev rX0 : Rect S512x768 := Rect.unit (s := S512x768) ![0, 0] S512x768.size inb_S512x768_S512x768_0_0
abbrev rW0 : Rect S768x2304 := Rect.unit (s := S768x2304) ![0, 0] S768x2304.size inb_S768x2304_S768x2304_0_0
abbrev rB0 : Rect S1x2304 := Rect.unit (s := S1x2304) ![0, 0] S1x2304.size inb_S1x2304_S1x2304_0_0
abbrev rO0 : Rect S12x512x64 := Rect.unit (s := S12x512x64) ![0, 0, 0] S12x512x64.size inb_S12x512x64_S12x512x64_0_0_0

/-! ## What the body leaves in each output window's buffer -/

/-- The query block: the first column band of `rows · weight + bias`, head-major. -/
def out0_3 (x0 : Vec F S512x768 .f32) (x1 : Vec F S768x2304 .bf16) (x2 : Vec F S1x2304 .f32) : Vec F S12x512x64 .bf16 :=
  View.canon [⟨rO0, k0_pay2 (View.ld x0 rX0) (View.ld x1 rW0) (View.ld x2 rB0)⟩]
/-- The key block: the second column band. -/
def out0_4 (x0 : Vec F S512x768 .f32) (x1 : Vec F S768x2304 .bf16) (x2 : Vec F S1x2304 .f32) : Vec F S12x512x64 .bf16 :=
  View.canon [⟨rO0, k0_pay3 (View.ld x0 rX0) (View.ld x1 rW0) (View.ld x2 rB0)⟩]
/-- The value block: the third column band. -/
def out0_5 (x0 : Vec F S512x768 .f32) (x1 : Vec F S768x2304 .bf16) (x2 : Vec F S1x2304 .f32) : Vec F S12x512x64 .bf16 :=
  View.canon [⟨rO0, k0_pay4 (View.ld x0 rX0) (View.ld x1 rW0) (View.ld x2 rB0)⟩]

/-- One whole-buffer store covers the buffer. -/
theorem cover0_O (p0 : Vec F S12x512x64 .bf16) (y : S12x512x64.Idx) :
    ∃ pc ∈ ([⟨rO0, p0⟩] : List (View.Piece (Elt F) S12x512x64 .bf16)), y ∈ pc.1.set :=
  View.cover_of_tiled [⟨rO0, p0⟩] S12x512x64.size (by rfl) y

/-! ## The pipeline's proof data -/

/-- The proof data of the projection pipeline on core `c`: the arrays as the region finds them; after the body at
    point `t` each input's buffer at its block and each output's at its band of the inputs' blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-! ## Each input's buffer holds its block, fetched there or not -/

/-- Input window 0's current staging buffer holds its block at every point, whether or not the pipeline fetched it
    there (unfetched, the block index has not moved since the last fetch), for any proof data whose array is `V`'s and
    whose body leaves the block in place; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not the pipeline fetched it
    there (unfetched, the block index has not moved since the last fetch), for any proof data whose array is `V`'s and
    whose body leaves the block in place; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not the pipeline fetched it
    there (unfetched, the block index has not moved since the last fetch), for any proof data whose array is `V`'s and
    whose body leaves the block in place; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's triple -/

set_option maxHeartbeats 1000000 in
/-- The kernel body on whole staging memrefs, the three inputs' at read contents `x0 x1 x2` and the three outputs' at
    anything, runs to the continuation holding the inputs' as they were and each output's at its column band of
    `rows · weight + bias`: each output buffer is loaded once (the value unused) and then stored whole, so what it
    holds afterwards is the canon of that one store, which covers it. -/
theorem sound_kernel0 (c : Dev nD) (E : Set ℕ) (i : grid0.Coords)
    (arg1 : Memref sig .tc .vmem S512x768 .f32) (harg1 : arg1.IsWhole) (arg2 : Memref sig .tc .vmem S768x2304 .bf16) (harg2 : arg2.IsWhole) (arg3 : Memref sig .tc .vmem S1x2304 .f32) (harg3 : arg3.IsWhole)
    (arg4 : Memref sig .tc .vmem S12x512x64 .bf16) (harg4 : arg4.IsWhole) (arg5 : Memref sig .tc .vmem S12x512x64 .bf16) (harg5 : arg5.IsWhole) (arg6 : Memref sig .tc .vmem S12x512x64 .bf16) (harg6 : arg6.IsWhole)
    (x0 : Vec F S512x768 .f32) (x1 : Vec F S768x2304 .bf16) (x2 : Vec F S1x2304 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E
          (cc0__qkv_proj_kernel i arg1 harg1 arg2 harg2 arg3 harg3 arg4 harg4 arg5 harg5 arg6 harg6) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_O _)
  isplitl [H4]
  · iexists _; isplitr
    swap; · iexact H4
    ipureintro
    exact View.read_writes_eq_canon _ _ _ (cover0_O _)
  iexists _; isplitr
  swap; · iexact H5
  ipureintro
  exact View.read_writes_eq_canon _ _ _ (cover0_O _)

/-! ## The body obligation, at a generic point -/

/-- What the body is called with at point `t`: the invariant, the core's dues, and each window's current staging
    buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: each window's buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the kernel's triple applies at those blocks; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-! ## The body obligation -/

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/-
  The attention kernel (the second kernel region), read at the contents `V` the TensorCore's buffers hold when the
  region is entered.  At grid point (pair p, tile i) the body loads the query block of head pair p and rows
  256·i … 256·i+255, the whole key and value blocks of that pair, and the mask row; per head it forms the scaled
  scores plus mask, their row softmax (maximum, exponential of the difference, row sum, quotient) and the product
  with the values, and stores the two heads' results side by side as one 256 × 128 block.  This module states what
  each staging buffer holds after the body, proves the body's triple by symbolic execution, and packages it as the
  pipeline's proof data and body obligation.
-/
import proofs.«428411_j45337674777147_3_alg».proof.Proof.Gen.KernelIdeal.Launch
import proofs.«428411_j45337674777147_3_alg».proof.Proof.Gen.KernelIdeal.Skeleton
import proofs.«428411_j45337674777147_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block at every point, whether the pipeline fetched it there
    or not (unfetched, the block index has not moved since the last fetch), for any proof data whose array is `V`'s
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

/-- Input window 1's staging buffer holds the window's block at every point, whether the pipeline fetched it there
    or not (unfetched, the block index has not moved since the last fetch), for any proof data whose array is `V`'s
    and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

/-- Input window 2's staging buffer holds the window's block at every point, whether the pipeline fetched it there
    or not (unfetched, the block index has not moved since the last fetch), for any proof data whose array is `V`'s
    and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl)
      (fun t => by rw [hafter]; unfold Dat.blockOf iblk1; rw [hA]; try rfl) t d).trans
    (by unfold Dat.fetched Dat.blockOf iblk1; rw [hA]; try rfl)

/-- Input window 3's staging buffer holds the window's block at every point, whether the pipeline fetched it there
    or not (unfetched, the block index has not moved since the last fetch), for any proof data whose array is `V`'s
    and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl)
      (fun t => by rw [hafter]; unfold Dat.blockOf iblk1; rw [hA]; try rfl) t d).trans
    (by unfold Dat.fetched Dat.blockOf iblk1; rw [hA]; try rfl)

/-! ## The body's accesses: every load and store is of a whole staging buffer -/

abbrev rQ1 : Rect S2x256x64 := Rect.unit (s := S2x256x64) ![0, 0, 0] S2x256x64.size inb_S2x256x64_S2x256x64_0_0_0
abbrev rK1 : Rect S2x4096x64 := Rect.unit (s := S2x4096x64) ![0, 0, 0] S2x4096x64.size inb_S2x4096x64_S2x4096x64_0_0_0
abbrev rM1 : Rect S1x4096 := Rect.unit (s := S1x4096) ![0, 0] S1x4096.size inb_S1x4096_S1x4096_0_0
abbrev rO1 : Rect S256x128 := Rect.unit (s := S256x128) ![0, 0] S256x128.size inb_S256x128_S256x128_0_0

/-! ## What the body leaves in the output window's buffer -/

/-- The context block: the two heads' attention results side by side. -/
def out1_4 (x0 : Vec F S2x256x64 .bf16) (x1 : Vec F S2x4096x64 .bf16) (x2 : Vec F S2x4096x64 .bf16) (x3 : Vec F S1x4096 .f32) : Vec F S256x128 .f32 :=
  View.canon [⟨rO1, k1_pay1 (View.ld x0 rQ1) (View.ld x1 rK1) (View.ld x2 rK1) (View.ld x3 rM1)⟩]

/-- One whole-buffer store covers the buffer. -/
theorem cover1_O (p0 : Vec F S256x128 .f32) (y : S256x128.Idx) :
    ∃ pc ∈ ([⟨rO1, p0⟩] : List (View.Piece (Elt F) S256x128 .f32)), y ∈ pc.1.set :=
  View.cover_of_tiled [⟨rO1, p0⟩] S256x128.size (by rfl) y

/-! ## The body's triple -/

set_option maxHeartbeats 1000000 in
/-- The body on whole staging memrefs, the four inputs' at read contents `x0 … x3` and the output's at anything,
    runs to the continuation holding the inputs' as they were and the output's at the context block of the inputs:
    four whole-buffer loads, one (unused) load of the output buffer, and one whole-buffer store of the payload. -/
theorem sound_kernel1 (c : Dev nD) (E : Set ℕ) (i : grid1.Coords)
    (arg2 : Memref sig .tc .vmem S2x256x64 .bf16) (harg2 : arg2.IsWhole)
    (arg3 : Memref sig .tc .vmem S2x4096x64 .bf16) (harg3 : arg3.IsWhole)
    (arg4 : Memref sig .tc .vmem S2x4096x64 .bf16) (harg4 : arg4.IsWhole)
    (arg5 : Memref sig .tc .vmem S1x4096 .f32) (harg5 : arg5.IsWhole)
    (arg6 : Memref sig .tc .vmem S256x128 .f32) (harg6 : arg6.IsWhole)
    (x0 : Vec F S2x256x64 .bf16) (x1 : Vec F S2x4096x64 .bf16) (x2 : Vec F S2x4096x64 .bf16) (x3 : Vec F S1x4096 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out1_4 x0 x1 x2 x3)) -∗ K ⟨⟩))
      ⊢ wp frame (wpE (defs₀ (F := F)) Variants.none c none) E
          (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_O _)

/-! ## The pipeline's proof data -/

/-- The proof data of the attention pipeline on core `c`: the arrays as the region finds them; after the body at
    point `t` each input's buffer at its block and the output's at the context block of the inputs' blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`: the invariant, the core's tally, and each window's current staging
    memref at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the same, each memref at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the four inputs' memrefs hold their blocks, so the body's triple applies at those
    blocks; the invariant and the core's tally pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The whole program run, at any float instance: @main is a stretch of host operations (the activations re-laid, the
  three weights concatenated and narrowed, the three biases concatenated), the projection region, one host operation
  (the mask re-laid), the attention region, and one host operation (the result re-laid).  The contents of the
  TensorCore's unscoped buffers are followed through these five items as a fold from the launch memory: a host
  stretch applies its operations, a region leaves its arrays at what its pipeline's write-backs fold to and every
  other buffer as it found it.  Every weakly fair execution terminates, nothing faulting, with EVERY unscoped buffer
  at the last valuation of that fold: the arguments, which no item writes, at their launch contents (the frame),
  and the result at a named term (what the value claim reads).
-/
import proofs.«428411_j45337674777147_3_alg».proof.Proof.Gen.KernelIdeal.Launch
import proofs.«428411_j45337674777147_3_alg».proof.Proof.Gen.KernelIdeal.Skeleton
import proofs.«428411_j45337674777147_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«428411_j45337674777147_3_alg».proof.Proof.Gen.KernelIdeal.Regions
import proofs.«428411_j45337674777147_3_alg».proof.Proof.Region0
import proofs.«428411_j45337674777147_3_alg».proof.Proof.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between items: a fold through @main -/

/-- Core `c`'s buffers at launch. -/
abbrev W0 : Dev nD → Valuation τ sig (Elt F) := fun c b => (s₀ m ρ).mem ((c : Dev nD), b)
/-- After the first host stretch: what the projection region is entered from. -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- At the projection region's exit: its arrays at what the pipeline leaves (the inputs as entered, each output's
    write-backs folded), every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch: what the attention region is entered from. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the last host stretch: what the program ends with. -/
abbrev W5 : Dev nD → Valuation τ sig (Elt F) := fun c => StableHlo.after hostOps2 (W4 m ρ c)

/-! ### A buffer no item writes ends as launched -/

/-- A buffer that no host stretch writes and that is no array of either region holds its launch contents at the end. -/
theorem W5_keep (c : Dev nD) (b : Ref sig .tc) (h0 : b ∉ hostOps0_W) (h1 : ∀ w, Pipeline.arrRef spec0 w ≠ b)
    (h2 : b ∉ hostOps1_W) (h3 : ∀ w, Pipeline.arrRef spec1 w ≠ b) (h4 : b ∉ hostOps2_W) :
    W5 m ρ c (Proc.devRef .tc b) = m ((c : Thread nD τ).loc b) :=
  (StableHlo.after_of_writes_sub hostOps2 _ hostOps2_writes h4).trans <|
    (W4_of_ne m ρ c b h3).trans <| (StableHlo.after_of_writes_sub hostOps1 _ hostOps1_writes h2).trans <|
    (W2_of_ne m ρ c b h1).trans <| (StableHlo.after_of_writes_sub hostOps0 _ hostOps0_writes h0).trans rfl

theorem W5_main_arg0 (c : Dev nD) : W5 m ρ c (Proc.devRef .tc main_arg0) = m ((c : Thread nD τ).loc main_arg0) :=
  W5_keep m ρ c main_arg0 (by decide) (by decide) (by decide) (by decide) (by decide)
theorem W5_main_arg1 (c : Dev nD) : W5 m ρ c (Proc.devRef .tc main_arg1) = m ((c : Thread nD τ).loc main_arg1) :=
  W5_keep m ρ c main_arg1 (by decide) (by decide) (by decide) (by decide) (by decide)
theorem W5_main_arg2 (c : Dev nD) : W5 m ρ c (Proc.devRef .tc main_arg2) = m ((c : Thread nD τ).loc main_arg2) :=
  W5_keep m ρ c main_arg2 (by decide) (by decide) (by decide) (by decide) (by decide)
theorem W5_main_arg3 (c : Dev nD) : W5 m ρ c (Proc.devRef .tc main_arg3) = m ((c : Thread nD τ).loc main_arg3) :=
  W5_keep m ρ c main_arg3 (by decide) (by decide) (by decide) (by decide) (by decide)
theorem W5_main_arg4 (c : Dev nD) : W5 m ρ c (Proc.devRef .tc main_arg4) = m ((c : Thread nD τ).loc main_arg4) :=
  W5_keep m ρ c main_arg4 (by decide) (by decide) (by decide) (by decide) (by decide)
theorem W5_main_arg5 (c : Dev nD) : W5 m ρ c (Proc.devRef .tc main_arg5) = m ((c : Thread nD τ).loc main_arg5) :=
  W5_keep m ρ c main_arg5 (by decide) (by decide) (by decide) (by decide) (by decide)
theorem W5_main_arg6 (c : Dev nD) : W5 m ρ c (Proc.devRef .tc main_arg6) = m ((c : Thread nD τ).loc main_arg6) :=
  W5_keep m ρ c main_arg6 (by decide) (by decide) (by decide) (by decide) (by decide)
theorem W5_main_arg7 (c : Dev nD) : W5 m ρ c (Proc.devRef .tc main_arg7) = m ((c : Thread nD τ).loc main_arg7) :=
  W5_keep m ρ c main_arg7 (by decide) (by decide) (by decide) (by decide) (by decide)

/-! ## The proof data family and the thread state -/

/-- No pipeline has a prefetched table. -/
abbrev padm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) padm p) c
  | ⟨0, _⟩ => fun c => dat0 (U1 m ρ) c
  | ⟨1, _⟩ => fun c => dat1 (U3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (W5 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W1`, left at `W2`. Its arrays are split
    out of the unscoped buffers and put back at the exit contents; the generator register goes into the pipeline's
    invariant and comes out; nothing is owed; the kernel has no semaphore of its own. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W3`, left at `W4`. Its arrays are split
    out of the unscoped buffers and put back at the exit contents; the generator register goes into the pipeline's
    invariant and comes out; nothing is owed; the kernel has no semaphore of its own. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five items in order. -/
abbrev psegs : List (Pipeline.Seg (pcfgs (F := F)) padm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- After the last host stretch the thread state regroups into the final one beside the core owing nothing. -/
theorem last_chain (c : Dev nD) :
    iprop(StableHlo.held (c : Thread nD τ) (Pipeline.ucRefs τ sig) (W5 m ρ c) ∗ R (F := F) c)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO
/-- @main is the run of those items. -/
theorem main_run (c : Dev nD) : main (F := F) c = Pipeline.Seg.run (psegs m ρ) := (main_chain c).trans (by chain_rfl)

-- the launch theorem's implicit arguments are found by unifying its conclusion with this one, which takes unfolding
-- plain definitions in a metavariable's type
set_option backward.isDefEq.respectTransparency.types false in
/-- THE RUN: from any memory with zero counters every weakly fair execution of @main terminates, nothing faulting, and
    every final state holds every unscoped buffer of every core at the last contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) padm (pdats m ρ) () cellOf_inj emb₁ defs₀ 𝒱₀ L lv m ρ main (psegs m ρ)
    (fun c Q => by rw [main_run m ρ c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME, at any float instance: the run ends with every argument array at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c)⟩) (run_all m ρ)

end Cert.KernelIdeal.Hand

end
-- ==== Proof.Value0.lean ====
/-
  What the projection region leaves in its three output arrays, at the extended reals, as one function each of the
  arrays the region finds: entry (n, s, d) of output band `o` (0 the queries, 1 the keys, 2 the values) is row `s` of
  the activations times column `768·o + 64·n + d` of the concatenated weight, plus that column's bias.  Grid point
  `t` writes rows `512·t … 512·t+511` of every head; the eight points' blocks tile the arrays.
-/
import proofs.«428411_j45337674777147_3_alg».proof.Proof.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Column `768·o + 64·n + d` of the concatenated weight: lane `d` of head `n` in band `o`. -/
def bandCol (o : Fin 3) (n : Fin 12) (d : Fin 64) : Fin 2304 :=
  ⟨o.val * 768 + n.val * 64 + d.val, by have := o.isLt; have := n.isLt; have := d.isLt; omega⟩

/-- Band `o` of `x · w + b`, head-major. -/
def band (x : S4096x768.Idx → EReal) (w : S768x2304.Idx → EReal) (b : S1x2304.Idx → EReal) (o : Fin 3) : S12x4096x64.Idx → EReal :=
  fun i => (∑ h : Fin 768, x (ix2 (i 1) h) * w (ix2 h (bandCol o (i 0) (i 2)))) + b (ix2 (0 : Fin 1) (bandCol o (i 0) (i 2)))

/-- The product's left operand is read at the result's row … -/
theorem lhs_proj_0 (i : S512x2304.Idx) (q : dot_S512x768_S768x2304_S512x2304_1_0_0_1_n_n.contr.Idx) :
    (dot_S512x768_S768x2304_S512x2304_1_0_0_1_n_n.lhsIdx i q 0).val = (i 0).val := by
  unfold DotDims.lhsIdx
  rw [dif_neg (show ¬(0 : Fin S512x768.rank) ∈ dot_S512x768_S768x2304_S512x2304_1_0_0_1_n_n.lhsBatch by decide), dif_pos (show (0 : Fin S512x768.rank) ∈ dot_S512x768_S768x2304_S512x2304_1_0_0_1_n_n.lhsNonContracting by decide)]
  rfl
/-- … and at the contraction coordinate as its column. -/
theorem lhs_proj_1 (i : S512x2304.Idx) (q : dot_S512x768_S768x2304_S512x2304_1_0_0_1_n_n.contr.Idx) :
    (dot_S512x768_S768x2304_S512x2304_1_0_0_1_n_n.lhsIdx i q 1).val = (q ⟨0, by decide⟩).val :=
  dot_S512x768_S768x2304_S512x2304_1_0_0_1_n_n.lhsIdx_val_of_single rfl i q
/-- The right operand is read at the contraction coordinate as its row … -/
theorem rhs_proj_0 (i : S512x2304.Idx) (q : dot_S512x768_S768x2304_S512x2304_1_0_0_1_n_n.contr.Idx) :
    (dot_S512x768_S768x2304_S512x2304_1_0_0_1_n_n.rhsIdx i q 0).val = (q ⟨0, by decide⟩).val :=
  dot_S512x768_S768x2304_S512x2304_1_0_0_1_n_n.rhsIdx_val_of_single rfl i q
/-- … and at the result's column. -/
theorem rhs_proj_1 (i : S512x2304.Idx) (q : dot_S512x768_S768x2304_S512x2304_1_0_0_1_n_n.contr.Idx) :
    (dot_S512x768_S768x2304_S512x2304_1_0_0_1_n_n.rhsIdx i q 1).val = (i 1).val := by
  unfold DotDims.rhsIdx
  rw [dif_neg (show ¬(1 : Fin S768x2304.rank) ∈ dot_S512x768_S768x2304_S512x2304_1_0_0_1_n_n.rhsBatch by decide), dif_pos (show (1 : Fin S768x2304.rank) ∈ dot_S512x768_S768x2304_S512x2304_1_0_0_1_n_n.rhsNonContracting by decide)]
  rfl

/-- Entry (r, j) of `rows · weight + bias`: the sum over the 768 hidden coordinates of row `r` of the row block times
    column `j` of the weight, plus the bias of column `j` (the narrowings are the identity on the extended reals). -/
theorem pay1_apply (x0 : Vec Ideal S512x768 .f32) (x3 : Vec Ideal S768x2304 .bf16) (x6 : Vec Ideal S1x2304 .f32) (r : Fin 512) (j : Fin 2304) :
    k0_pay1 x0 x3 x6 (ix2 r j) = (∑ h : Fin 768, x0 (ix2 r h) * x3 (ix2 h j)) + x6 (ix2 (0 : Fin 1) j) := by
  unfold k0_pay1
  simp only [shapeCast_self]
  rw [truncf_apply, addf_apply]
  refine congrArg₂ (· + ·) ?_ ?_
  · simp only [matmul]
    rw [Ideal.matmul_constant_zero_apply, ← Equiv.sum_comp (contrEquiv1 dot_S512x768_S768x2304_S512x2304_1_0_0_1_n_n 768 rfl rfl).symm]
    refine Finset.sum_congr rfl fun k _ => ?_
    have hk := contrEquiv1_symm_val dot_S512x768_S768x2304_S512x2304_1_0_0_1_n_n 768 rfl rfl k
    have el : dot_S512x768_S768x2304_S512x2304_1_0_0_1_n_n.lhsIdx (ix2 r j) ((contrEquiv1 dot_S512x768_S768x2304_S512x2304_1_0_0_1_n_n 768 rfl rfl).symm k) = ix2 r k := funext fun a => Fin.ext (by
      match a with
      | ⟨0, _⟩ => exact lhs_proj_0 _ _
      | ⟨1, _⟩ => exact (lhs_proj_1 _ _).trans hk)
    have er : dot_S512x768_S768x2304_S512x2304_1_0_0_1_n_n.rhsIdx (ix2 r j) ((contrEquiv1 dot_S512x768_S768x2304_S512x2304_1_0_0_1_n_n 768 rfl rfl).symm k) = ix2 k j := funext fun a => Fin.ext (by
      match a with
      | ⟨0, _⟩ => exact (rhs_proj_0 _ _).trans hk
      | ⟨1, _⟩ => exact rhs_proj_1 _ _)
    rw [el, er]
    rfl
  · exact broadcastTo_apply _ _ (ix2 r j) (ix2 (0 : Fin 1) j) (fun a => match a with | ⟨0, _⟩ => rfl | ⟨1, _⟩ => rfl)

/-- Slicing a 768-column band at column offset `768·o`, splitting its columns into 12 heads of 64 lanes and moving the
    head axis to the front reads, at head `n`, row `r`, lane `d`, the source at row `r`, column `768·o + 64·n + d`. -/
theorem relay_apply (off : Fin 2 → Nat) (hs : S512x2304.Slices off S512x768) (o : Fin 3) (h0 : off 0 = 0) (h1 : off 1 = o.val * 768)
    (U : FVec Ideal S512x2304 .bf16) (n : Fin 12) (r : Fin 512) (d : Fin 64) :
    transpose S12x512x64 [1, 0, 2] (shapeCast S512x12x64 (extractStridedSlice S512x768 off U hs) shapeCasts_S512x768_S512x12x64)
        transposes_S512x12x64_p1_0_2_S12x512x64 (ix3 n r d) = U (ix2 r (bandCol o n d)) := by
  refine (transpose_apply _ _ _ (ix3 n r d) (ix3 r n d) (fun b => match b with | ⟨0, _⟩ => rfl | ⟨1, _⟩ => rfl | ⟨2, _⟩ => rfl)).trans ?_
  refine (shapeCast_apply _ _ (ix3 r n d) (ix2 r (⟨n.val * 64 + d.val, by have := n.isLt; have := d.isLt; omega⟩ : Fin 768)) (by
    rw [Shape.rowMajor_val_two, Shape.rowMajor_val_three]
    show r.val * 768 + (n.val * 64 + d.val) = (r.val * 12 + n.val) * 64 + d.val
    omega)).trans ?_
  exact extractStridedSlice_apply off U hs _ (ix2 r (bandCol o n d)) (fun a => match a with
    | ⟨0, _⟩ => by show r.val = off 0 + r.val; rw [h0]; omega
    | ⟨1, _⟩ => by show o.val * 768 + n.val * 64 + d.val = off 1 + (n.val * 64 + d.val); rw [h1]; omega)

/-- The first band's block at head `n`, row `r`, lane `d`. -/
theorem pay2_apply (x0 : Vec Ideal S512x768 .f32) (x3 : Vec Ideal S768x2304 .bf16) (x6 : Vec Ideal S1x2304 .f32) (n : Fin 12) (r : Fin 512) (d : Fin 64) :
    k0_pay2 x0 x3 x6 (ix3 n r d) = (∑ h : Fin 768, x0 (ix2 r h) * x3 (ix2 h (bandCol 0 n d))) + x6 (ix2 (0 : Fin 1) (bandCol 0 n d)) := by
  unfold k0_pay2
  exact (relay_apply ![0, 0] slices_S512x2304_o0_0_S512x768 0 rfl rfl _ n r d).trans (pay1_apply x0 x3 x6 r _)
/-- The second band's block at head `n`, row `r`, lane `d`. -/
theorem pay3_apply (x0 : Vec Ideal S512x768 .f32) (x3 : Vec Ideal S768x2304 .bf16) (x6 : Vec Ideal S1x2304 .f32) (n : Fin 12) (r : Fin 512) (d : Fin 64) :
    k0_pay3 x0 x3 x6 (ix3 n r d) = (∑ h : Fin 768, x0 (ix2 r h) * x3 (ix2 h (bandCol 1 n d))) + x6 (ix2 (0 : Fin 1) (bandCol 1 n d)) := by
  unfold k0_pay3
  exact (relay_apply ![0, 768] slices_S512x2304_o0_768_S512x768 1 rfl rfl _ n r d).trans (pay1_apply x0 x3 x6 r _)
/-- The third band's block at head `n`, row `r`, lane `d`. -/
theorem pay4_apply (x0 : Vec Ideal S512x768 .f32) (x3 : Vec Ideal S768x2304 .bf16) (x6 : Vec Ideal S1x2304 .f32) (n : Fin 12) (r : Fin 512) (d : Fin 64) :
    k0_pay4 x0 x3 x6 (ix3 n r d) = (∑ h : Fin 768, x0 (ix2 r h) * x3 (ix2 h (bandCol 2 n d))) + x6 (ix2 (0 : Fin 1) (bandCol 2 n d)) := by
  unfold k0_pay4
  exact (relay_apply ![0, 1536] slices_S512x2304_o0_1536_S512x768 2 rfl rfl _ n r d).trans (pay1_apply x0 x3 x6 r _)

/-- The zero offsets of a rank-2 block, as a constant function. -/
theorem hz2 : (![0, 0] : Fin 2 → Nat) = fun _ => 0 := funext fun a => by fin_cases a <;> rfl
/-- The zero offsets of a rank-3 block, as a constant function. -/
theorem hz3 : (![0, 0, 0] : Fin 3 → Nat) = fun _ => 0 := funext fun a => by fin_cases a <;> rfl

/-- The block indices of the six arrays at each of the eight points: the activations' and the three outputs' row block
    is the point's number, every other block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0
    ∧ win0_4.index t (0 : Fin 3) = 0 ∧ win0_4.index t (1 : Fin 3) = t.val ∧ win0_4.index t (2 : Fin 3) = 0
    ∧ win0_5.index t (0 : Fin 3) = 0 ∧ win0_5.index t (1 : Fin 3) = t.val ∧ win0_5.index t (2 : Fin 3) = 0 :=
  (by decide +kernel : ∀ t : Fin grid0.N, _)

/-- The activations' block at point `t` is rows `512·t … 512·t+511` of the array. -/
theorem iblk0_0_apply (c : Dev nD) (t : Fin cfg0.N) (r : Fin 512) (h : Fin 768) (k : S4096x768.Idx)
    (hk0 : (k 0).val = 512 * t.val + r.val) (hk1 : (k 1).val = h.val) :
    (iblk0 V c 0 t : Vec Ideal S512x768 .f32) (ix2 r h) = (V c main_v0 : S4096x768.Idx → EReal) k := by
  obtain ⟨e00, e01, -⟩ := idx_facts0 t
  unfold iblk0
  rw [View.read_apply]
  show V c main_v0 _ = V c main_v0 k
  congr 1
  funext a
  apply Fin.ext
  match a with
  | ⟨0, _⟩ => show win0_0.index t (0 : Fin 2) * 512 + 1 * r.val = (k 0).val; rw [e00, hk0]; omega
  | ⟨1, _⟩ => show win0_0.index t (1 : Fin 2) * 768 + 1 * h.val = (k 1).val; rw [e01, hk1]; omega

/-- The weight's block at every point is the whole array. -/
theorem iblk0_1_apply (c : Dev nD) (t : Fin cfg0.N) (j : S768x2304.Idx) :
    (iblk0 V c 1 t : Vec Ideal S768x2304 .bf16) j = (V c main_v2 : S768x2304.Idx → EReal) j := by
  obtain ⟨-, -, e10, e11, -⟩ := idx_facts0 t
  unfold iblk0
  rw [View.read_apply]
  show V c main_v2 _ = V c main_v2 j
  congr 1
  funext a
  apply Fin.ext
  match a with
  | ⟨0, _⟩ => show win0_1.index t (0 : Fin 2) * 768 + 1 * (j 0).val = (j 0).val; rw [e10]; omega
  | ⟨1, _⟩ => show win0_1.index t (1 : Fin 2) * 2304 + 1 * (j 1).val = (j 1).val; rw [e11]; omega

/-- The bias row's block at every point is the whole array. -/
theorem iblk0_2_apply (c : Dev nD) (t : Fin cfg0.N) (j : S1x2304.Idx) :
    (iblk0 V c 2 t : Vec Ideal S1x2304 .f32) j = (V c main_v4 : S1x2304.Idx → EReal) j := by
  obtain ⟨-, -, -, -, e20, e21, -⟩ := idx_facts0 t
  unfold iblk0
  rw [View.read_apply]
  show V c main_v4 _ = V c main_v4 j
  congr 1
  funext a
  apply Fin.ext
  match a with
  | ⟨0, _⟩ => show win0_2.index t (0 : Fin 2) * 1 + 1 * (j 0).val = (j 0).val; rw [e20]; omega
  | ⟨1, _⟩ => show win0_2.index t (1 : Fin 2) * 2304 + 1 * (j 1).val = (j 1).val; rw [e21]; omega

/-- A block whose entry (n, r, d) is row `r` of a row block times column `768·o + 64·n + d` of the weight plus that
    column's bias, the row block being rows `512·t …` of the activations, is block `t` of band `o`. -/
theorem block_eq_band (X : S4096x768.Idx → EReal) (W : S768x2304.Idx → EReal) (B : S1x2304.Idx → EReal) (o : Fin 3)
    (x0 : Vec Ideal S512x768 .f32) (x3 : Vec Ideal S768x2304 .bf16) (x6 : Vec Ideal S1x2304 .f32) (P : S12x512x64.Idx → EReal)
    (hP : ∀ (n : Fin 12) (r : Fin 512) (d : Fin 64), P (ix3 n r d) = (∑ h : Fin 768, x0 (ix2 r h) * x3 (ix2 h (bandCol o n d))) + x6 (ix2 (0 : Fin 1) (bandCol o n d)))
    (tv : Nat)
    (hx0 : ∀ (r : Fin 512) (h : Fin 768) (k : S4096x768.Idx), (k 0).val = 512 * tv + r.val → (k 1).val = h.val → x0 (ix2 r h) = X k)
    (hx3 : ∀ j, x3 j = W j) (hx6 : ∀ j, x6 j = B j)
    (y : S12x512x64.Idx) (i : S12x4096x64.Idx)
    (hi0 : (i 0).val = (y 0).val) (hi1 : (i 1).val = 512 * tv + (y 1).val) (hi2 : (i 2).val = (y 2).val) :
    P y = band X W B o i := by
  obtain ⟨n, r, d, rfl⟩ : ∃ (n : Fin 12) (r : Fin 512) (d : Fin 64), y = ix3 n r d := ⟨y 0, y 1, y 2, eq_ix3 y⟩
  rw [hP]
  unfold band
  have e0 : i 0 = n := Fin.ext hi0
  have e2 : i 2 = d := Fin.ext hi2
  rw [e0, e2]
  refine congrArg₂ (· + ·) (Finset.sum_congr rfl fun h _ => ?_) (hx6 _)
  rw [hx0 r h (ix2 (i 1) h) hi1 rfl, hx3]

/-- What point `t` writes back to the query array is block `t` of band 0. -/
theorem flushed3_eq (c : Dev nD) (t : Fin cfg0.N) :
    (dat0 (F := Ideal) V c).flushed 3 t = ((cfg0.win 3).blk t).view.read (Elt Ideal) (band (V c main_v0) (V c main_v2) (V c main_v4) 0) := by
  show (cfg0.win 3).cut (grid0.coords t) ((dat0 (F := Ideal) V c).after 3 t) = _
  rw [after0_3]
  unfold out0_3
  rw [View.canon_unit_zero hz3]
  simp only [View.ld_unit_zero (S := S512x768) hz2, View.ld_unit_zero (S := S768x2304) hz2, View.ld_unit_zero (S := S1x2304) hz2]
  obtain ⟨-, -, -, -, -, -, e0, e1, e2, -⟩ := idx_facts0 t
  funext y
  show k0_pay2 (iblk0 V c 0 t) (iblk0 V c 1 t) (iblk0 V c 2 t) y = band (V c main_v0) (V c main_v2) (V c main_v4) 0 (((cfg0.win 3).blk t).view.emb y)
  refine block_eq_band _ _ _ 0 (iblk0 V c 0 t) (iblk0 V c 1 t) (iblk0 V c 2 t) _ (pay2_apply _ _ _) t.val
    (iblk0_0_apply V c t) (iblk0_1_apply V c t) (iblk0_2_apply V c t) y _ ?_ ?_ ?_
  · show win0_3.index t (0 : Fin 3) * 12 + 1 * (y 0).val = (y 0).val; rw [e0]; omega
  · show win0_3.index t (1 : Fin 3) * 512 + 1 * (y 1).val = 512 * t.val + (y 1).val; rw [e1]; omega
  · show win0_3.index t (2 : Fin 3) * 64 + 1 * (y 2).val = (y 2).val; rw [e2]; omega

/-- An index of the query array is in point `t`'s block iff each coordinate is in the block's range on its axis. -/
theorem mem_blk3 (t : Fin cfg0.N) (i : S12x4096x64.Idx) :
    i ∈ ((cfg0.win 3).blk t).view.set ↔ ∀ a : Fin 3, win0_3.index t a * S12x512x64.size a ≤ (i a).val ∧ (i a).val < win0_3.index t a * S12x512x64.size a + S12x512x64.size a := by
  show i ∈ ((View.whole main_v5_0).slice (win0_3.rect t)).set ↔ _
  rw [View.set_slice_whole, Rect.mem_set_unit]
  exact Iff.rfl

/-- Row `s` of the query array is in the block of point `s / 512`, which writes back. -/
theorem cover3 (i : S12x4096x64.Idx) : ∃ t : Fin cfg0.N, (cfg0.win 3).flush t = true ∧ i ∈ ((cfg0.win 3).blk t).view.set := by
  have h0 : (i 0).val < 12 := (i 0).isLt
  have h1 : (i 1).val < 4096 := (i 1).isLt
  have h2 : (i 2).val < 64 := (i 2).isLt
  obtain ⟨t, ht⟩ : ∃ t : Fin cfg0.N, t.val = (i 1).val / 512 := ⟨⟨(i 1).val / 512, by rw [show cfg0.N = 8 from N_0]; omega⟩, rfl⟩
  obtain ⟨-, -, -, -, -, -, e0, e1, e2, -⟩ := idx_facts0 t
  refine ⟨t, flush0_3 t, ?_⟩
  rw [mem_blk3]
  intro a
  match a with
  | ⟨0, _⟩ => show win0_3.index t (0 : Fin 3) * 12 ≤ (i 0).val ∧ (i 0).val < win0_3.index t (0 : Fin 3) * 12 + 12; rw [e0]; omega
  | ⟨1, _⟩ => show win0_3.index t (1 : Fin 3) * 512 ≤ (i 1).val ∧ (i 1).val < win0_3.index t (1 : Fin 3) * 512 + 512; rw [e1, ht]; omega
  | ⟨2, _⟩ => show win0_3.index t (2 : Fin 3) * 64 ≤ (i 2).val ∧ (i 2).val < win0_3.index t (2 : Fin 3) * 64 + 64; rw [e2]; omega

/-- What point `t` writes back to the key array is block `t` of band 1. -/
theorem flushed4_eq (c : Dev nD) (t : Fin cfg0.N) :
    (dat0 (F := Ideal) V c).flushed 4 t = ((cfg0.win 4).blk t).view.read (Elt Ideal) (band (V c main_v0) (V c main_v2) (V c main_v4) 1) := by
  show (cfg0.win 4).cut (grid0.coords t) ((dat0 (F := Ideal) V c).after 4 t) = _
  rw [after0_4]
  unfold out0_4
  rw [View.canon_unit_zero hz3]
  simp only [View.ld_unit_zero (S := S512x768) hz2, View.ld_unit_zero (S := S768x2304) hz2, View.ld_unit_zero (S := S1x2304) hz2]
  obtain ⟨-, -, -, -, -, -, -, -, -, e0, e1, e2, -⟩ := idx_facts0 t
  funext y
  show k0_pay3 (iblk0 V c 0 t) (iblk0 V c 1 t) (iblk0 V c 2 t) y = band (V c main_v0) (V c main_v2) (V c main_v4) 1 (((cfg0.win 4).blk t).view.emb y)
  refine block_eq_band _ _ _ 1 (iblk0 V c 0 t) (iblk0 V c 1 t) (iblk0 V c 2 t) _ (pay3_apply _ _ _) t.val
    (iblk0_0_apply V c t) (iblk0_1_apply V c t) (iblk0_2_apply V c t) y _ ?_ ?_ ?_
  · show win0_4.index t (0 : Fin 3) * 12 + 1 * (y 0).val = (y 0).val; rw [e0]; omega
  · show win0_4.index t (1 : Fin 3) * 512 + 1 * (y 1).val = 512 * t.val + (y 1).val; rw [e1]; omega
  · show win0_4.index t (2 : Fin 3) * 64 + 1 * (y 2).val = (y 2).val; rw [e2]; omega

/-- An index of the key array is in point `t`'s block iff each coordinate is in the block's range on its axis. -/
theorem mem_blk4 (t : Fin cfg0.N) (i : S12x4096x64.Idx) :
    i ∈ ((cfg0.win 4).blk t).view.set ↔ ∀ a : Fin 3, win0_4.index t a * S12x512x64.size a ≤ (i a).val ∧ (i a).val < win0_4.index t a * S12x512x64.size a + S12x512x64.size a := by
  show i ∈ ((View.whole main_v5_1).slice (win0_4.rect t)).set ↔ _
  rw [View.set_slice_whole, Rect.mem_set_unit]
  exact Iff.rfl

/-- Row `s` of the key array is in the block of point `s / 512`, which writes back. -/
theorem cover4 (i : S12x4096x64.Idx) : ∃ t : Fin cfg0.N, (cfg0.win 4).flush t = true ∧ i ∈ ((cfg0.win 4).blk t).view.set := by
  have h0 : (i 0).val < 12 := (i 0).isLt
  have h1 : (i 1).val < 4096 := (i 1).isLt
  have h2 : (i 2).val < 64 := (i 2).isLt
  obtain ⟨t, ht⟩ : ∃ t : Fin cfg0.N, t.val = (i 1).val / 512 := ⟨⟨(i 1).val / 512, by rw [show cfg0.N = 8 from N_0]; omega⟩, rfl⟩
  obtain ⟨-, -, -, -, -, -, -, -, -, e0, e1, e2, -⟩ := idx_facts0 t
  refine ⟨t, flush0_4 t, ?_⟩
  rw [mem_blk4]
  intro a
  match a with
  | ⟨0, _⟩ => show win0_4.index t (0 : Fin 3) * 12 ≤ (i 0).val ∧ (i 0).val < win0_4.index t (0 : Fin 3) * 12 + 12; rw [e0]; omega
  | ⟨1, _⟩ => show win0_4.index t (1 : Fin 3) * 512 ≤ (i 1).val ∧ (i 1).val < win0_4.index t (1 : Fin 3) * 512 + 512; rw [e1, ht]; omega
  | ⟨2, _⟩ => show win0_4.index t (2 : Fin 3) * 64 ≤ (i 2).val ∧ (i 2).val < win0_4.index t (2 : Fin 3) * 64 + 64; rw [e2]; omega

/-- What point `t` writes back to the value array is block `t` of band 2. -/
theorem flushed5_eq (c : Dev nD) (t : Fin cfg0.N) :
    (dat0 (F := Ideal) V c).flushed 5 t = ((cfg0.win 5).blk t).view.read (Elt Ideal) (band (V c main_v0) (V c main_v2) (V c main_v4) 2) := by
  show (cfg0.win 5).cut (grid0.coords t) ((dat0 (F := Ideal) V c).after 5 t) = _
  rw [after0_5]
  unfold out0_5
  rw [View.canon_unit_zero hz3]
  simp only [View.ld_unit_zero (S := S512x768) hz2, View.ld_unit_zero (S := S768x2304) hz2, View.ld_unit_zero (S := S1x2304) hz2]
  obtain ⟨-, -, -, -, -, -, -, -, -, -, -, -, e0, e1, e2⟩ := idx_facts0 t
  funext y
  show k0_pay4 (iblk0 V c 0 t) (iblk0 V c 1 t) (iblk0 V c 2 t) y = band (V c main_v0) (V c main_v2) (V c main_v4) 2 (((cfg0.win 5).blk t).view.emb y)
  refine block_eq_band _ _ _ 2 (iblk0 V c 0 t) (iblk0 V c 1 t) (iblk0 V c 2 t) _ (pay4_apply _ _ _) t.val
    (iblk0_0_apply V c t) (iblk0_1_apply V c t) (iblk0_2_apply V c t) y _ ?_ ?_ ?_
  · show win0_5.index t (0 : Fin 3) * 12 + 1 * (y 0).val = (y 0).val; rw [e0]; omega
  · show win0_5.index t (1 : Fin 3) * 512 + 1 * (y 1).val = 512 * t.val + (y 1).val; rw [e1]; omega
  · show win0_5.index t (2 : Fin 3) * 64 + 1 * (y 2).val = (y 2).val; rw [e2]; omega

/-- An index of the value array is in point `t`'s block iff each coordinate is in the block's range on its axis. -/
theorem mem_blk5 (t : Fin cfg0.N) (i : S12x4096x64.Idx) :
    i ∈ ((cfg0.win 5).blk t).view.set ↔ ∀ a : Fin 3, win0_5.index t a * S12x512x64.size a ≤ (i a).val ∧ (i a).val < win0_5.index t a * S12x512x64.size a + S12x512x64.size a := by
  show i ∈ ((View.whole main_v5_2).slice (win0_5.rect t)).set ↔ _
  rw [View.set_slice_whole, Rect.mem_set_unit]
  exact Iff.rfl

/-- Row `s` of the value array is in the block of point `s / 512`, which writes back. -/
theorem cover5 (i : S12x4096x64.Idx) : ∃ t : Fin cfg0.N, (cfg0.win 5).flush t = true ∧ i ∈ ((cfg0.win 5).blk t).view.set := by
  have h0 : (i 0).val < 12 := (i 0).isLt
  have h1 : (i 1).val < 4096 := (i 1).isLt
  have h2 : (i 2).val < 64 := (i 2).isLt
  obtain ⟨t, ht⟩ : ∃ t : Fin cfg0.N, t.val = (i 1).val / 512 := ⟨⟨(i 1).val / 512, by rw [show cfg0.N = 8 from N_0]; omega⟩, rfl⟩
  obtain ⟨-, -, -, -, -, -, -, -, -, -, -, -, e0, e1, e2⟩ := idx_facts0 t
  refine ⟨t, flush0_5 t, ?_⟩
  rw [mem_blk5]
  intro a
  match a with
  | ⟨0, _⟩ => show win0_5.index t (0 : Fin 3) * 12 ≤ (i 0).val ∧ (i 0).val < win0_5.index t (0 : Fin 3) * 12 + 12; rw [e0]; omega
  | ⟨1, _⟩ => show win0_5.index t (1 : Fin 3) * 512 ≤ (i 1).val ∧ (i 1).val < win0_5.index t (1 : Fin 3) * 512 + 512; rw [e1, ht]; omega
  | ⟨2, _⟩ => show win0_5.index t (2 : Fin 3) * 64 ≤ (i 2).val ∧ (i 2).val < win0_5.index t (2 : Fin 3) * 64 + 64; rw [e2]; omega

/-- The query array after the region. -/
theorem arr0_3 (c : Dev nD) :
    ((dat0 (F := Ideal) V c).arrAt 3 cfg0.N : S12x4096x64.Idx → EReal) = band (V c main_v0) (V c main_v2) (V c main_v4) 0 :=
  (dat0 (F := Ideal) V c).arrAt_eq_of_cover 3 (band (V c main_v0) (V c main_v2) (V c main_v4) 0) (fun t _ => flushed3_eq V c t) cover3
/-- The key array after the region. -/
theorem arr0_4 (c : Dev nD) :
    ((dat0 (F := Ideal) V c).arrAt 4 cfg0.N : S12x4096x64.Idx → EReal) = band (V c main_v0) (V c main_v2) (V c main_v4) 1 :=
  (dat0 (F := Ideal) V c).arrAt_eq_of_cover 4 (band (V c main_v0) (V c main_v2) (V c main_v4) 1) (fun t _ => flushed4_eq V c t) cover4
/-- The value array after the region. -/
theorem arr0_5 (c : Dev nD) :
    ((dat0 (F := Ideal) V c).arrAt 5 cfg0.N : S12x4096x64.Idx → EReal) = band (V c main_v0) (V c main_v2) (V c main_v4) 2 :=
  (dat0 (F := Ideal) V c).arrAt_eq_of_cover 5 (band (V c main_v0) (V c main_v2) (V c main_v4) 2) (fun t _ => flushed5_eq V c t) cover5

end Cert.KernelIdeal.Hand

end
-- ==== Proof.Spec.lean ====
/-
  The mathematics both programs compute, index by index over the extended reals: multi-head self-attention with
  12 heads of width 64 over 4096 positions of a 768-wide activation.

  A projection sends row `s` of the activations to `row s · W + b`; its column `64·n + d` is lane `d` of head `n`.
  For head `n`, query row `s` and key row `t` the score is `(q n s · k n t) · 2⁻³ + mask t`; the row's weights are
  its softmax — `exp (score − row maximum)` over the row's sum of those exponentials, the maximum taken from `−∞` —
  and the context is the weights' combination of the value rows.  The result puts head `n`'s lane `d` of position `s`
  in column `64·n + d` of row `s`.

  The scale and the maximum's starting value are kept as the bit patterns the programs spell (`2⁻³` and `−∞`); the
  two laws at the end are what relates another spelling of the same numbers to this one: dividing by `8` is
  multiplying by `2⁻³` on every extended real, and a maximum folded from `b` is already at least `b`.
-/
import Idealize.ShloMosaic.PureOps.Ideal
import Idealize.ShloMosaic.PureOps.Ideal.Laws
import Mathlib.Algebra.BigOperators.Group.Finset.Basic
import Mathlib.Data.Finset.Fold

noncomputable section

namespace Cert.Spec

open Idealize.ShloMosaic

/-- Column `64·n + d` of a 768-wide row: lane `d` of head `n`. -/
def col (n : Fin 12) (d : Fin 64) : Fin 768 := ⟨n.val * 64 + d.val, by have := n.isLt; have := d.isLt; omega⟩

/-- A projection, head-major: `(n, s, d) ↦ (row s of x) · (column 64n+d of W) + b (64n+d)`. -/
def proj (x : Fin 4096 → Fin 768 → EReal) (W : Fin 768 → Fin 768 → EReal) (b : Fin 768 → EReal)
    (n : Fin 12) (s : Fin 4096) (d : Fin 64) : EReal :=
  (∑ h : Fin 768, x s h * W h (col n d)) + b (col n d)

/-- The score scale `2⁻³ = 1/√64`, as the pattern the kernel spells. -/
abbrev scale : EReal := Ideal.ofBits .f32 0x3E000000#32
/-- `−∞`, the value a row maximum starts from, as the pattern both programs spell. -/
abbrev negInf : EReal := Ideal.ofBits .f32 0xFF800000#32

section Attention
variable (q k v : Fin 12 → Fin 4096 → Fin 64 → EReal) (mask : Fin 4096 → EReal)

/-- Scaled, masked score of head `n`, query row `s`, key row `t`. -/
def score (n : Fin 12) (s t : Fin 4096) : EReal := (∑ d : Fin 64, q n s d * k n t d) * scale + mask t
/-- The maximum of a score row, folded from `−∞`. -/
def rowMax (n : Fin 12) (s : Fin 4096) : EReal := (Finset.univ : Finset (Fin 4096)).fold max negInf (fun t => score q k mask n s t)
/-- The shifted exponential. -/
def ex (n : Fin 12) (s t : Fin 4096) : EReal := Ideal.exp (score q k mask n s t - rowMax q k mask n s)
/-- The row's sum of exponentials. -/
def rowSum (n : Fin 12) (s : Fin 4096) : EReal := ∑ t : Fin 4096, ex q k mask n s t
/-- The softmax weight. -/
def prob (n : Fin 12) (s t : Fin 4096) : EReal := Ideal.div (ex q k mask n s t) (rowSum q k mask n s)
/-- The context: the weights' combination of the value rows. -/
def ctx (n : Fin 12) (s : Fin 4096) (d : Fin 64) : EReal := ∑ t : Fin 4096, prob q k mask n s t * v n t d

end Attention

/-- The whole function: position `s`, column `64·n + d` of the result is head `n`'s context lane `d` at `s`, the three
    projections taken of the same activations. -/
def out (x : Fin 4096 → Fin 768 → EReal) (mask : Fin 4096 → EReal)
    (Wq : Fin 768 → Fin 768 → EReal) (bq : Fin 768 → EReal) (Wk : Fin 768 → Fin 768 → EReal) (bk : Fin 768 → EReal)
    (Wv : Fin 768 → Fin 768 → EReal) (bv : Fin 768 → EReal) (n : Fin 12) (s : Fin 4096) (d : Fin 64) : EReal :=
  ctx (proj x Wq bq) (proj x Wk bk) (proj x Wv bv) mask n s d

/-! ## Two spellings of one number -/

/-- `8.0` denotes the real `8`. -/
theorem ofBits_eight : Ideal.ofBits .f32 0x41000000#32 = ((8 : ℝ) : EReal) := by
  simp [Ideal.ofBits, Ideal.ieee, -EReal.coe_mul]; norm_num

/-- `0.125` denotes the real `1/8`. -/
theorem ofBits_eighth : Ideal.ofBits .f32 0x3E000000#32 = ((1 / 8 : ℝ) : EReal) := by
  simp [Ideal.ofBits, Ideal.ieee, -EReal.coe_mul]; norm_num

/-- Dividing by `8` is multiplying by `2⁻³`, on every extended real. -/
theorem div_eight (x : EReal) : Ideal.div x (Ideal.ofBits .f32 0x41000000#32) = x * scale := by
  rw [ofBits_eight, Ideal.div_coe (by norm_num : (8 : ℝ) ≠ 0), scale, ofBits_eighth]

/-- A maximum folded from `b` is at least `b`, so taking the maximum with `b` once more changes nothing. -/
theorem max_fold_max {ι : Type} (s : Finset ι) (b : EReal) (f : ι → EReal) : max b (s.fold max b f) = s.fold max b f :=
  max_eq_right ((Finset.le_fold_max (s := s) (f := f) (b := b) b).2 (Or.inl le_rfl))

end Cert.Spec

end
-- ==== Proof.Value1.lean ====
/-
  What the attention region leaves in its output array, at the extended reals, as one function of the arrays the
  region finds: entry (s, 64·n + d) is head `n`'s context lane `d` at position `s` (Spec.lean's `ctx`) of the
  head-major query, key and value arrays and the mask row.  Grid point (pair p, tile i) writes rows
  `256·i … 256·i+255` of columns `128·p … 128·p+127`; the 96 points' blocks tile the array.
-/
import proofs.«428411_j45337674777147_3_alg».proof.Proof.Region1
import proofs.«428411_j45337674777147_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- A [12, 4096, 64] array read head-major. -/
def heads (a : S12x4096x64.Idx → EReal) : Fin 12 → Fin 4096 → Fin 64 → EReal := fun n s d => a (ix3 n s d)
/-- The mask row of a [1, 4096] array. -/
def maskRow (a : S1x4096.Idx → EReal) : Fin 4096 → EReal := fun t => a (ix2 (0 : Fin 1) t)

/-- The head of column `o` of a 768-wide row, and the lane within it. -/
def headOf (o : Fin 768) : Fin 12 := ⟨o.val / 64, by have := o.isLt; omega⟩
def laneOf (o : Fin 768) : Fin 64 := ⟨o.val % 64, Nat.mod_lt _ (by norm_num)⟩

/-! ## The two block products read at an index -/

theorem lhs_qk_0 (i : S2x256x4096.Idx) (q : dot_S2x256x64_S2x4096x64_S2x256x4096_2_2_1_1_0_0.contr.Idx) :
    (dot_S2x256x64_S2x4096x64_S2x256x4096_2_2_1_1_0_0.lhsIdx i q 0).val = (i 0).val := by
  unfold DotDims.lhsIdx
  rw [dif_pos (show (0 : Fin S2x256x64.rank) ∈ dot_S2x256x64_S2x4096x64_S2x256x4096_2_2_1_1_0_0.lhsBatch by decide)]
  rfl
theorem lhs_qk_1 (i : S2x256x4096.Idx) (q : dot_S2x256x64_S2x4096x64_S2x256x4096_2_2_1_1_0_0.contr.Idx) :
    (dot_S2x256x64_S2x4096x64_S2x256x4096_2_2_1_1_0_0.lhsIdx i q 1).val = (i 1).val := by
  unfold DotDims.lhsIdx
  rw [dif_neg (show ¬(1 : Fin S2x256x64.rank) ∈ dot_S2x256x64_S2x4096x64_S2x256x4096_2_2_1_1_0_0.lhsBatch by decide), dif_pos (show (1 : Fin S2x256x64.rank) ∈ dot_S2x256x64_S2x4096x64_S2x256x4096_2_2_1_1_0_0.lhsNonContracting by decide)]
  rfl
theorem lhs_qk_2 (i : S2x256x4096.Idx) (q : dot_S2x256x64_S2x4096x64_S2x256x4096_2_2_1_1_0_0.contr.Idx) :
    (dot_S2x256x64_S2x4096x64_S2x256x4096_2_2_1_1_0_0.lhsIdx i q 2).val = (q ⟨0, by decide⟩).val :=
  dot_S2x256x64_S2x4096x64_S2x256x4096_2_2_1_1_0_0.lhsIdx_val_of_single rfl i q
theorem rhs_qk_0 (i : S2x256x4096.Idx) (q : dot_S2x256x64_S2x4096x64_S2x256x4096_2_2_1_1_0_0.contr.Idx) :
    (dot_S2x256x64_S2x4096x64_S2x256x4096_2_2_1_1_0_0.rhsIdx i q 0).val = (i 0).val := by
  unfold DotDims.rhsIdx
  rw [dif_pos (show (0 : Fin S2x4096x64.rank) ∈ dot_S2x256x64_S2x4096x64_S2x256x4096_2_2_1_1_0_0.rhsBatch by decide)]
  rfl
theorem rhs_qk_1 (i : S2x256x4096.Idx) (q : dot_S2x256x64_S2x4096x64_S2x256x4096_2_2_1_1_0_0.contr.Idx) :
    (dot_S2x256x64_S2x4096x64_S2x256x4096_2_2_1_1_0_0.rhsIdx i q 1).val = (i 2).val := by
  unfold DotDims.rhsIdx
  rw [dif_neg (show ¬(1 : Fin S2x4096x64.rank) ∈ dot_S2x256x64_S2x4096x64_S2x256x4096_2_2_1_1_0_0.rhsBatch by decide), dif_pos (show (1 : Fin S2x4096x64.rank) ∈ dot_S2x256x64_S2x4096x64_S2x256x4096_2_2_1_1_0_0.rhsNonContracting by decide)]
  rfl
theorem rhs_qk_2 (i : S2x256x4096.Idx) (q : dot_S2x256x64_S2x4096x64_S2x256x4096_2_2_1_1_0_0.contr.Idx) :
    (dot_S2x256x64_S2x4096x64_S2x256x4096_2_2_1_1_0_0.rhsIdx i q 2).val = (q ⟨0, by decide⟩).val :=
  dot_S2x256x64_S2x4096x64_S2x256x4096_2_2_1_1_0_0.rhsIdx_val_of_single rfl i q

/-- The score product, batched over the two heads of the pair: entry (j, r, t) is query row r of head j against key
    row t of head j, summed over the 64 lanes. -/
theorem matmul_qk_apply (lhs : FVec Ideal S2x256x64 .bf16) (rhs : FVec Ideal S2x4096x64 .bf16)
    (j : Fin 2) (r : Fin 256) (t : Fin 4096) :
    FloatOps.matmul dot_S2x256x64_S2x4096x64_S2x256x4096_2_2_1_1_0_0 none lhs rhs (constant (F := Ideal) S2x256x4096 .f32 0x00000000#32) (ix3 j r t)
      = ∑ d : Fin 64, lhs (ix3 j r d) * rhs (ix3 j t d) := by
  rw [Ideal.matmul_constant_zero_apply, ← Equiv.sum_comp (contrEquiv1 dot_S2x256x64_S2x4096x64_S2x256x4096_2_2_1_1_0_0 64 rfl rfl).symm]
  refine Finset.sum_congr rfl fun k _ => ?_
  have hk := contrEquiv1_symm_val dot_S2x256x64_S2x4096x64_S2x256x4096_2_2_1_1_0_0 64 rfl rfl k
  have el : dot_S2x256x64_S2x4096x64_S2x256x4096_2_2_1_1_0_0.lhsIdx (ix3 j r t) ((contrEquiv1 dot_S2x256x64_S2x4096x64_S2x256x4096_2_2_1_1_0_0 64 rfl rfl).symm k) = ix3 j r k := funext fun a => Fin.ext (by
    match a with
    | ⟨0, _⟩ => exact lhs_qk_0 _ _
    | ⟨1, _⟩ => exact lhs_qk_1 _ _
    | ⟨2, _⟩ => exact (lhs_qk_2 _ _).trans hk)
  have er : dot_S2x256x64_S2x4096x64_S2x256x4096_2_2_1_1_0_0.rhsIdx (ix3 j r t) ((contrEquiv1 dot_S2x256x64_S2x4096x64_S2x256x4096_2_2_1_1_0_0 64 rfl rfl).symm k) = ix3 j t k := funext fun a => Fin.ext (by
    match a with
    | ⟨0, _⟩ => exact rhs_qk_0 _ _
    | ⟨1, _⟩ => exact rhs_qk_1 _ _
    | ⟨2, _⟩ => exact (rhs_qk_2 _ _).trans hk)
  rw [el, er]

theorem lhs_pv_0 (i : S2x256x64.Idx) (q : dot_S2x256x4096_S2x4096x64_S2x256x64_2_1_1_2_0_0.contr.Idx) :
    (dot_S2x256x4096_S2x4096x64_S2x256x64_2_1_1_2_0_0.lhsIdx i q 0).val = (i 0).val := by
  unfold DotDims.lhsIdx
  rw [dif_pos (show (0 : Fin S2x256x4096.rank) ∈ dot_S2x256x4096_S2x4096x64_S2x256x64_2_1_1_2_0_0.lhsBatch by decide)]
  rfl
theorem lhs_pv_1 (i : S2x256x64.Idx) (q : dot_S2x256x4096_S2x4096x64_S2x256x64_2_1_1_2_0_0.contr.Idx) :
    (dot_S2x256x4096_S2x4096x64_S2x256x64_2_1_1_2_0_0.lhsIdx i q 1).val = (i 1).val := by
  unfold DotDims.lhsIdx
  rw [dif_neg (show ¬(1 : Fin S2x256x4096.rank) ∈ dot_S2x256x4096_S2x4096x64_S2x256x64_2_1_1_2_0_0.lhsBatch by decide), dif_pos (show (1 : Fin S2x256x4096.rank) ∈ dot_S2x256x4096_S2x4096x64_S2x256x64_2_1_1_2_0_0.lhsNonContracting by decide)]
  rfl
theorem lhs_pv_2 (i : S2x256x64.Idx) (q : dot_S2x256x4096_S2x4096x64_S2x256x64_2_1_1_2_0_0.contr.Idx) :
    (dot_S2x256x4096_S2x4096x64_S2x256x64_2_1_1_2_0_0.lhsIdx i q 2).val = (q ⟨0, by decide⟩).val :=
  dot_S2x256x4096_S2x4096x64_S2x256x64_2_1_1_2_0_0.lhsIdx_val_of_single rfl i q
theorem rhs_pv_0 (i : S2x256x64.Idx) (q : dot_S2x256x4096_S2x4096x64_S2x256x64_2_1_1_2_0_0.contr.Idx) :
    (dot_S2x256x4096_S2x4096x64_S2x256x64_2_1_1_2_0_0.rhsIdx i q 0).val = (i 0).val := by
  unfold DotDims.rhsIdx
  rw [dif_pos (show (0 : Fin S2x4096x64.rank) ∈ dot_S2x256x4096_S2x4096x64_S2x256x64_2_1_1_2_0_0.rhsBatch by decide)]
  rfl
theorem rhs_pv_1 (i : S2x256x64.Idx) (q : dot_S2x256x4096_S2x4096x64_S2x256x64_2_1_1_2_0_0.contr.Idx) :
    (dot_S2x256x4096_S2x4096x64_S2x256x64_2_1_1_2_0_0.rhsIdx i q 1).val = (q ⟨0, by decide⟩).val :=
  dot_S2x256x4096_S2x4096x64_S2x256x64_2_1_1_2_0_0.rhsIdx_val_of_single rfl i q
theorem rhs_pv_2 (i : S2x256x64.Idx) (q : dot_S2x256x4096_S2x4096x64_S2x256x64_2_1_1_2_0_0.contr.Idx) :
    (dot_S2x256x4096_S2x4096x64_S2x256x64_2_1_1_2_0_0.rhsIdx i q 2).val = (i 2).val := by
  unfold DotDims.rhsIdx
  rw [dif_neg (show ¬(2 : Fin S2x4096x64.rank) ∈ dot_S2x256x4096_S2x4096x64_S2x256x64_2_1_1_2_0_0.rhsBatch by decide), dif_pos (show (2 : Fin S2x4096x64.rank) ∈ dot_S2x256x4096_S2x4096x64_S2x256x64_2_1_1_2_0_0.rhsNonContracting by decide)]
  rfl

/-- The context product, batched over the two heads: entry (j, r, d) is weight row r of head j against lane d of
    head j's value rows, summed over the 4096 key positions. -/
theorem matmul_pv_apply (lhs : FVec Ideal S2x256x4096 .bf16) (rhs : FVec Ideal S2x4096x64 .bf16)
    (j : Fin 2) (r : Fin 256) (d : Fin 64) :
    FloatOps.matmul dot_S2x256x4096_S2x4096x64_S2x256x64_2_1_1_2_0_0 none lhs rhs (constant (F := Ideal) S2x256x64 .f32 0x00000000#32) (ix3 j r d)
      = ∑ t : Fin 4096, lhs (ix3 j r t) * rhs (ix3 j t d) := by
  rw [Ideal.matmul_constant_zero_apply, ← Equiv.sum_comp (contrEquiv1 dot_S2x256x4096_S2x4096x64_S2x256x64_2_1_1_2_0_0 4096 rfl rfl).symm]
  refine Finset.sum_congr rfl fun k _ => ?_
  have hk := contrEquiv1_symm_val dot_S2x256x4096_S2x4096x64_S2x256x64_2_1_1_2_0_0 4096 rfl rfl k
  have el : dot_S2x256x4096_S2x4096x64_S2x256x64_2_1_1_2_0_0.lhsIdx (ix3 j r d) ((contrEquiv1 dot_S2x256x4096_S2x4096x64_S2x256x64_2_1_1_2_0_0 4096 rfl rfl).symm k) = ix3 j r k := funext fun a => Fin.ext (by
    match a with
    | ⟨0, _⟩ => exact lhs_pv_0 _ _
    | ⟨1, _⟩ => exact lhs_pv_1 _ _
    | ⟨2, _⟩ => exact (lhs_pv_2 _ _).trans hk)
  have er : dot_S2x256x4096_S2x4096x64_S2x256x64_2_1_1_2_0_0.rhsIdx (ix3 j r d) ((contrEquiv1 dot_S2x256x4096_S2x4096x64_S2x256x64_2_1_1_2_0_0 4096 rfl rfl).symm k) = ix3 j k d := funext fun a => Fin.ext (by
    match a with
    | ⟨0, _⟩ => exact rhs_pv_0 _ _
    | ⟨1, _⟩ => exact (rhs_pv_1 _ _).trans hk
    | ⟨2, _⟩ => exact rhs_pv_2 _ _)
  rw [el, er]

/-! ## The layout steps and the two row reductions read at an index -/

/-- The mask row, viewed [1, 1, 4096] and spread over heads and query rows, reads the row's entry at the key position. -/
theorem mask_spread_apply (m : FVec Ideal S1x4096 .f32) (j : Fin 2) (r : Fin 256) (t : Fin 4096) :
    broadcastTo S2x256x4096 (shapeCast S1x1x4096 m shapeCasts_S1x4096_S1x1x4096) broadcasts_S1x1x4096_S2x256x4096 (ix3 j r t)
      = m (ix2 (0 : Fin 1) t) := by
  refine (broadcastTo_apply _ _ (ix3 j r t) (ix3 (0 : Fin 1) (0 : Fin 1) t) (fun a => ?_)).trans
    (shapeCast_ab_1ab_apply m _ 0 0 t)
  match a with
  | ⟨0, _⟩ => rfl
  | ⟨1, _⟩ => rfl
  | ⟨2, _⟩ => rfl

/-- A per-row value, viewed as a column [2, 256, 1] and spread along the key positions, reads the row's value. -/
theorem row_spread_apply (u : FVec Ideal S2x256 .f32) (j : Fin 2) (r : Fin 256) (t : Fin 4096) :
    broadcastTo S2x256x4096 (shapeCast S2x256x1 u shapeCasts_S2x256_S2x256x1) broadcasts_S2x256x1_S2x256x4096 (ix3 j r t)
      = u (ix2 j r) := by
  refine (broadcastTo_apply _ _ (ix3 j r t) (ix3 j r (0 : Fin 1)) (fun a => ?_)).trans ?_
  · match a with
    | ⟨0, _⟩ => rfl
    | ⟨1, _⟩ => rfl
    | ⟨2, _⟩ => rfl
  · refine shapeCast_apply u _ _ _ ?_
    rw [Shape.rowMajor_val_two, Shape.rowMajor_val_three]
    show j.val * 256 + r.val = (j.val * 256 + r.val) * 1 + 0
    omega

/-- The index a reduction over the key axis reads at key position `t` of row (j, r). -/
theorem lift_keys (j : Fin 2) (r : Fin 256) (t : Fin 4096) :
    reduces_S2x256x4096_S2x256.lift (ix2 j r) t = ix3 j r t :=
  funext fun a => Fin.ext (by
    match a with
    | ⟨0, _⟩ => rfl
    | ⟨1, _⟩ => rfl
    | ⟨2, _⟩ => rfl)

/-- The row maximum: the fold of `max` from `−∞` over the key positions. -/
theorem rowmax_apply (src : FVec Ideal S2x256x4096 .f32) (j : Fin 2) (r : Fin 256) :
    multiReduction (F := Ideal) .maximumf [2] S2x256 src 0xFF800000#32 reduces_S2x256x4096_S2x256 (.inl rfl) rfl (ix2 j r)
      = (Finset.univ : Finset (Fin 4096)).fold max Cert.Spec.negInf (fun t => src (ix3 j r t)) := by
  refine (Ideal.multiReduction_maximumf_single src 0xFF800000#32 reduces_S2x256x4096_S2x256 (.inl rfl) rfl (ix2 j r)).trans ?_
  have e : (src ∘ reduces_S2x256x4096_S2x256.lift (ix2 j r)) = fun t : Fin 4096 => src (ix3 j r t) :=
    funext fun t => congrArg src (lift_keys j r t)
  rw [e]
  rfl

/-- The row sum: the sum over the key positions. -/
theorem rowsum_apply (src : FVec Ideal S2x256x4096 .f32) (j : Fin 2) (r : Fin 256) :
    multiReduction (F := Ideal) .add [2] S2x256 src 0x00000000#32 reduces_S2x256x4096_S2x256 (.inl rfl) rfl (ix2 j r)
      = ∑ t : Fin 4096, src (ix3 j r t) := by
  refine (Ideal.multiReduction_add_single src 0x00000000#32 reduces_S2x256x4096_S2x256 (.inl rfl) rfl (ix2 j r)).trans ?_
  exact Finset.sum_congr rfl fun t _ => congrArg src (lift_keys j r t)

/-- Column `64·j + d` of a 128-wide block: lane `d` of the pair's head `j`. -/
def pairCol (j : Fin 2) (d : Fin 64) : Fin 128 := ⟨64 * j.val + d.val, by have := j.isLt; have := d.isLt; omega⟩

/-- The two heads' [256, 64] results set side by side: column `64·j + d` of row `r` is head `j`'s entry (r, d). -/
theorem side_by_side_apply (w : FVec Ideal S2x256x64 .f32) (j : Fin 2) (r : Fin 256) (d : Fin 64) :
    concatenate S256x128 1
        [⟨S256x64, shapeCast S256x64 (extractStridedSlice S1x256x64 ![0, 0, 0] w slices_S2x256x64_o0_0_0_S1x256x64) shapeCasts_S1x256x64_S256x64⟩,
         ⟨S256x64, shapeCast S256x64 (extractStridedSlice S1x256x64 ![1, 0, 0] w slices_S2x256x64_o1_0_0_S1x256x64) shapeCasts_S1x256x64_S256x64⟩]
        concatenates_S256x64_S256x64_S256x128_d1 (ix2 r (pairCol j d))
      = w (ix3 j r d) := by
  match j with
  | ⟨0, _⟩ =>
    refine (concatenate_pair_apply_left (s₁ := S256x64) (s₂ := S256x64) (1 : Fin S256x128.rank) _ _ _ (ix2 r (pairCol 0 d)) rfl (ix2 r d) (fun b => ?_)).trans ?_
    · match b with
      | ⟨0, _⟩ => rfl
      | ⟨1, _⟩ => show d.val = 64 * 0 + d.val; omega
    · refine (shapeCast_1ab_ab_apply _ _ r d).trans ?_
      refine extractStridedSlice_apply _ w _ (ix3 (0 : Fin 1) r d) (ix3 (0 : Fin 2) r d) (fun a => ?_)
      match a with
      | ⟨0, _⟩ => rfl
      | ⟨1, _⟩ => show r.val = 0 + r.val; omega
      | ⟨2, _⟩ => show d.val = 0 + d.val; omega
  | ⟨1, _⟩ =>
    refine (concatenate_pair_apply_right (s₁ := S256x64) (s₂ := S256x64) (1 : Fin S256x128.rank) _ _ _ (ix2 r (pairCol 1 d)) rfl rfl (ix2 r d) (fun b hb => ?_) ?_).trans ?_
    · match b with
      | ⟨0, _⟩ => rfl
      | ⟨1, _⟩ => exact absurd rfl hb
    · show d.val + 64 = 64 * 1 + d.val; omega
    · refine (shapeCast_1ab_ab_apply _ _ r d).trans ?_
      refine extractStridedSlice_apply _ w _ (ix3 (0 : Fin 1) r d) (ix3 (1 : Fin 2) r d) (fun a => ?_)
      match a with
      | ⟨0, _⟩ => rfl
      | ⟨1, _⟩ => show r.val = 0 + r.val; omega
      | ⟨2, _⟩ => show d.val = 0 + d.val; omega

theorem exp_apply {s : Shape} {φ : FTy} (x : FVec Ideal s φ) (i : s.Idx) : exp x i = Ideal.exp (x i) := rfl

/-! ## The body's payload, stage by stage -/

/-- The scaled, masked scores of the pair's two heads. -/
def scoresOf (x0 : Vec Ideal S2x256x64 .bf16) (x1 : Vec Ideal S2x4096x64 .bf16) (x3 : Vec Ideal S1x4096 .f32) :
    FVec Ideal S2x256x4096 .f32 :=
  addf
    (mulf
      (matmul dot_S2x256x64_S2x4096x64_S2x256x4096_2_2_1_1_0_0 none
        (shapeCast S2x256x64 x0 shapeCasts_S2x256x64_S2x256x64 : FVec Ideal S2x256x64 .bf16)
        (shapeCast S2x4096x64 x1 shapeCasts_S2x4096x64_S2x4096x64 : FVec Ideal S2x4096x64 .bf16) (constant S2x256x4096 .f32 0x00000000#32))
      (broadcast S2x256x4096 (Scalar.ofBits .f32 0x3E000000#32)))
    (broadcastTo S2x256x4096 (shapeCast S1x1x4096 (shapeCast S1x4096 x3 shapeCasts_S1x4096_S1x4096 : FVec Ideal S1x4096 .f32) shapeCasts_S1x4096_S1x1x4096)
      broadcasts_S1x1x4096_S2x256x4096)

theorem scoresOf_apply (x0 : Vec Ideal S2x256x64 .bf16) (x1 : Vec Ideal S2x4096x64 .bf16) (x3 : Vec Ideal S1x4096 .f32)
    (j : Fin 2) (r : Fin 256) (t : Fin 4096) :
    scoresOf x0 x1 x3 (ix3 j r t)
      = (∑ d : Fin 64, x0 (ix3 j r d) * x1 (ix3 j t d)) * Cert.Spec.scale + x3 (ix2 (0 : Fin 1) t) := by
  unfold scoresOf
  rw [addf_apply, mulf_apply, broadcast_apply, mask_spread_apply, shapeCast_self, shapeCast_self, shapeCast_self]
  refine congrArg₂ (· + ·) (congrArg₂ (· * ·) ?_ rfl) rfl
  exact matmul_qk_apply x0 x1 j r t

/-- The exponentials of the scores less their row maximum. -/
def expsOf (S : FVec Ideal S2x256x4096 .f32) : FVec Ideal S2x256x4096 .f32 :=
  exp (subf S
    (broadcastTo S2x256x4096
      (shapeCast S2x256x1 (multiReduction .maximumf [2] S2x256 S 0xFF800000#32 reduces_S2x256x4096_S2x256 (.inl rfl) rfl)
        shapeCasts_S2x256_S2x256x1)
      broadcasts_S2x256x1_S2x256x4096))

theorem expsOf_apply (S : FVec Ideal S2x256x4096 .f32) (j : Fin 2) (r : Fin 256) (t : Fin 4096) :
    expsOf S (ix3 j r t)
      = Ideal.exp (S (ix3 j r t) - (Finset.univ : Finset (Fin 4096)).fold max Cert.Spec.negInf (fun t' => S (ix3 j r t'))) := by
  unfold expsOf
  rw [exp_apply, subf_apply, row_spread_apply, rowmax_apply]

/-- The exponentials over their row sum, as the weights the second product takes. -/
def probsOf (E : FVec Ideal S2x256x4096 .f32) : FVec Ideal S2x256x4096 .bf16 :=
  truncf .bf16
    (divf E
      (broadcastTo S2x256x4096
        (shapeCast S2x256x1 (multiReduction .add [2] S2x256 E 0x00000000#32 reduces_S2x256x4096_S2x256 (.inl rfl) rfl)
          shapeCasts_S2x256_S2x256x1)
        broadcasts_S2x256x1_S2x256x4096))
    bitsLt_bf16_f32

theorem probsOf_apply (E : FVec Ideal S2x256x4096 .f32) (j : Fin 2) (r : Fin 256) (t : Fin 4096) :
    probsOf E (ix3 j r t) = Ideal.div (E (ix3 j r t)) (∑ t' : Fin 4096, E (ix3 j r t')) := by
  unfold probsOf
  rw [truncf_apply, divf_apply, row_spread_apply, rowsum_apply]

/-- The payload is the two heads' context products set side by side. -/
theorem pay_eq (x0 : Vec Ideal S2x256x64 .bf16) (x1 : Vec Ideal S2x4096x64 .bf16) (x2 : Vec Ideal S2x4096x64 .bf16)
    (x3 : Vec Ideal S1x4096 .f32) :
    k1_pay1 x0 x1 x2 x3
      = concatenate S256x128 1
          [⟨S256x64, shapeCast S256x64 (extractStridedSlice S1x256x64 ![0, 0, 0]
              (matmul dot_S2x256x4096_S2x4096x64_S2x256x64_2_1_1_2_0_0 none (probsOf (expsOf (scoresOf x0 x1 x3)))
                (shapeCast S2x4096x64 x2 shapeCasts_S2x4096x64_S2x4096x64 : FVec Ideal S2x4096x64 .bf16) (constant S2x256x64 .f32 0x00000000#32))
              slices_S2x256x64_o0_0_0_S1x256x64) shapeCasts_S1x256x64_S256x64⟩,
           ⟨S256x64, shapeCast S256x64 (extractStridedSlice S1x256x64 ![1, 0, 0]
              (matmul dot_S2x256x4096_S2x4096x64_S2x256x64_2_1_1_2_0_0 none (probsOf (expsOf (scoresOf x0 x1 x3)))
                (shapeCast S2x4096x64 x2 shapeCasts_S2x4096x64_S2x4096x64 : FVec Ideal S2x4096x64 .bf16) (constant S2x256x64 .f32 0x00000000#32))
              slices_S2x256x64_o1_0_0_S1x256x64) shapeCasts_S1x256x64_S256x64⟩]
          concatenates_S256x64_S256x64_S256x128_d1 := rfl

/-- Column `64·j + d` of row `r` of the stored block is head `n`'s context lane `d` at position `s`, for any
    head-major arrays whose head `n` the loaded blocks' head `j` reads (query row `s` at block row `r`). -/
theorem pay_apply (x0 : Vec Ideal S2x256x64 .bf16) (x1 : Vec Ideal S2x4096x64 .bf16) (x2 : Vec Ideal S2x4096x64 .bf16)
    (x3 : Vec Ideal S1x4096 .f32) (q k v : Fin 12 → Fin 4096 → Fin 64 → EReal) (mask : Fin 4096 → EReal)
    (n : Fin 12) (s : Fin 4096) (j : Fin 2) (r : Fin 256) (d : Fin 64)
    (hq : ∀ d', x0 (ix3 j r d') = q n s d') (hk : ∀ t d', x1 (ix3 j t d') = k n t d')
    (hv : ∀ t d', x2 (ix3 j t d') = v n t d') (hm : ∀ t, x3 (ix2 (0 : Fin 1) t) = mask t) :
    k1_pay1 x0 x1 x2 x3 (ix2 r (pairCol j d)) = Cert.Spec.ctx q k v mask n s d := by
  have hS : ∀ t, scoresOf x0 x1 x3 (ix3 j r t) = Cert.Spec.score q k mask n s t := fun t => by
    rw [scoresOf_apply, hm]
    unfold Cert.Spec.score
    refine congrArg₂ (· + ·) (congrArg₂ (· * ·) (Finset.sum_congr rfl fun d' _ => ?_) rfl) rfl
    rw [hq, hk]
  have hE : ∀ t, expsOf (scoresOf x0 x1 x3) (ix3 j r t) = Cert.Spec.ex q k mask n s t := fun t => by
    rw [expsOf_apply]
    unfold Cert.Spec.ex Cert.Spec.rowMax
    rw [hS t, funext hS]
  have hP : ∀ t, probsOf (expsOf (scoresOf x0 x1 x3)) (ix3 j r t) = Cert.Spec.prob q k mask n s t := fun t => by
    rw [probsOf_apply]
    unfold Cert.Spec.prob Cert.Spec.rowSum
    rw [hE t, funext hE]
  rw [pay_eq, side_by_side_apply]
  refine (matmul_pv_apply _ _ j r d).trans ?_
  unfold Cert.Spec.ctx
  refine Finset.sum_congr rfl fun t _ => ?_
  rw [hP t, shapeCast_self, hv]

/-! ## From the points' blocks to the array -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The array the region leaves: entry (s, o) is head `o / 64`'s context lane `o % 64` at position `s`. -/
def ctxArr (c : Dev nD) : S4096x768.Idx → EReal := fun i =>
  Cert.Spec.ctx (heads (V c main_v5_0)) (heads (V c main_v5_1)) (heads (V c main_v5_2)) (maskRow (V c main_v6))
    (headOf (i 1)) (i 0) (laneOf (i 1))

/-- The index maps over the grid: the query block moves with the output block (pair on its head axis, tile on its
    row axis); the key and value blocks move with the output's pair only; the mask block does not move; the output's
    tile is one of 16 and its pair one of 6. -/
theorem idx_facts1 : ∀ t : Fin cfg1.N,
    win1_0.index t (0 : Fin 3) = win1_4.index t (1 : Fin 2) ∧ win1_0.index t (1 : Fin 3) = win1_4.index t (0 : Fin 2)
    ∧ win1_0.index t (2 : Fin 3) = 0
    ∧ win1_1.index t (0 : Fin 3) = win1_4.index t (1 : Fin 2) ∧ win1_1.index t (1 : Fin 3) = 0 ∧ win1_1.index t (2 : Fin 3) = 0
    ∧ win1_2.index t (0 : Fin 3) = win1_4.index t (1 : Fin 2) ∧ win1_2.index t (1 : Fin 3) = 0 ∧ win1_2.index t (2 : Fin 3) = 0
    ∧ win1_3.index t (0 : Fin 2) = 0 ∧ win1_3.index t (1 : Fin 2) = 0
    ∧ win1_4.index t (0 : Fin 2) ≤ 15 ∧ win1_4.index t (1 : Fin 2) ≤ 5 :=
  (by decide +kernel : ∀ t : Fin grid1.N, _)

/-- Every (tile, pair) is some point's output block. -/
theorem idx_onto1 : ∀ (q0 : Fin 16) (q1 : Fin 6), ∃ t : Fin cfg1.N, win1_4.index t = ![q0.val, q1.val] :=
  (by decide +kernel : ∀ (q0 : Fin 16) (q1 : Fin 6), ∃ t : Fin grid1.N, win1_4.index t = ![q0.val, q1.val])

/-- At point `t`, column `64·j + d` of row `r` of the body's result is the context of head `n = 2·pair + j` at position
    `s = 256·tile + r`, lane `d`: each loaded block is read where the output block's pair and tile say. -/
theorem block_entry (c : Dev nD) (t : Fin cfg1.N) (n : Fin 12) (s : Fin 4096) (j : Fin 2) (r : Fin 256) (d : Fin 64)
    (hn : n.val = 2 * win1_4.index t (1 : Fin 2) + j.val) (hs : s.val = 256 * win1_4.index t (0 : Fin 2) + r.val) :
    k1_pay1 (iblk1 V c 0 t) (iblk1 V c 1 t) (iblk1 V c 2 t) (iblk1 V c 3 t) (ix2 r (pairCol j d))
      = Cert.Spec.ctx (heads (V c main_v5_0)) (heads (V c main_v5_1)) (heads (V c main_v5_2)) (maskRow (V c main_v6)) n s d := by
  obtain ⟨a00, a01, a02, a10, a11, a12, a20, a21, a22, a30, a31, -, -⟩ := idx_facts1 t
  refine pay_apply _ _ _ _ _ _ _ _ n s j r d (fun d' => ?_) (fun t' d' => ?_) (fun t' d' => ?_) (fun t' => ?_)
  · show V c main_v5_0 (((cfg1.win 0).blk t).view.emb (ix3 j r d')) = V c main_v5_0 (ix3 n s d')
    refine congrArg _ (funext fun a => Fin.ext ?_)
    match a with
    | ⟨0, _⟩ => show win1_0.index t (0 : Fin 3) * 2 + 1 * j.val = n.val; omega
    | ⟨1, _⟩ => show win1_0.index t (1 : Fin 3) * 256 + 1 * r.val = s.val; omega
    | ⟨2, _⟩ => show win1_0.index t (2 : Fin 3) * 64 + 1 * d'.val = d'.val; omega
  · show V c main_v5_1 (((cfg1.win 1).blk t).view.emb (ix3 j t' d')) = V c main_v5_1 (ix3 n t' d')
    refine congrArg _ (funext fun a => Fin.ext ?_)
    match a with
    | ⟨0, _⟩ => show win1_1.index t (0 : Fin 3) * 2 + 1 * j.val = n.val; omega
    | ⟨1, _⟩ => show win1_1.index t (1 : Fin 3) * 4096 + 1 * t'.val = t'.val; omega
    | ⟨2, _⟩ => show win1_1.index t (2 : Fin 3) * 64 + 1 * d'.val = d'.val; omega
  · show V c main_v5_2 (((cfg1.win 2).blk t).view.emb (ix3 j t' d')) = V c main_v5_2 (ix3 n t' d')
    refine congrArg _ (funext fun a => Fin.ext ?_)
    match a with
    | ⟨0, _⟩ => show win1_2.index t (0 : Fin 3) * 2 + 1 * j.val = n.val; omega
    | ⟨1, _⟩ => show win1_2.index t (1 : Fin 3) * 4096 + 1 * t'.val = t'.val; omega
    | ⟨2, _⟩ => show win1_2.index t (2 : Fin 3) * 64 + 1 * d'.val = d'.val; omega
  · show V c main_v6 (((cfg1.win 3).blk t).view.emb (ix2 (0 : Fin 1) t')) = V c main_v6 (ix2 (0 : Fin 1) t')
    refine congrArg _ (funext fun a => Fin.ext ?_)
    match a with
    | ⟨0, _⟩ => show win1_3.index t (0 : Fin 2) * 1 + 1 * 0 = 0; omega
    | ⟨1, _⟩ => show win1_3.index t (1 : Fin 2) * 4096 + 1 * t'.val = t'.val; omega

/-- What point `t` writes back is block `t` of the context array. -/
theorem flushed_eq (c : Dev nD) (t : Fin cfg1.N) :
    (dat1 (F := Ideal) V c).flushed 4 t = ((cfg1.win 4).blk t).view.read (Elt Ideal) (ctxArr V c) := by
  show (cfg1.win 4).cut (grid1.coords t) ((dat1 V c).after 4 t) = _
  rw [after1_4]
  unfold out1_4
  rw [View.canon_unit_zero zeros2]
  simp only [View.ld_unit_zero (S := S2x256x64) zeros3, View.ld_unit_zero (S := S2x4096x64) zeros3,
    View.ld_unit_zero (S := S1x4096) zeros2]
  refine funext fun (y : S256x128.Idx) => ?_
  show k1_pay1 (iblk1 V c 0 t) (iblk1 V c 1 t) (iblk1 V c 2 t) (iblk1 V c 3 t) y
    = ctxArr V c (((cfg1.win 4).blk t).view.emb y)
  obtain ⟨-, -, -, -, -, -, -, -, -, -, -, b0, b1⟩ := idx_facts1 t
  have h1 : (y 1).val < 128 := (y 1).isLt
  obtain ⟨r, j, d, rfl⟩ : ∃ (r : Fin 256) (j : Fin 2) (d : Fin 64), y = ix2 r (pairCol j d) :=
    ⟨y 0, ⟨(y 1).val / 64, by omega⟩, ⟨(y 1).val % 64, Nat.mod_lt _ (by norm_num)⟩, funext fun a => by
      match a with
      | ⟨0, _⟩ => rfl
      | ⟨1, _⟩ => exact Fin.ext (by show (y 1).val = 64 * ((y 1).val / 64) + (y 1).val % 64; omega)⟩
  have hr := r.isLt
  have hj := j.isLt
  have hd := d.isLt
  have hn : (headOf (((cfg1.win 4).blk t).view.emb (ix2 r (pairCol j d)) 1)).val = 2 * win1_4.index t (1 : Fin 2) + j.val := by
    show (win1_4.index t (1 : Fin 2) * 128 + 1 * (64 * j.val + d.val)) / 64 = _
    omega
  have hs : ((((cfg1.win 4).blk t).view.emb (ix2 r (pairCol j d)) 0 : Fin 4096)).val = 256 * win1_4.index t (0 : Fin 2) + r.val := by
    show win1_4.index t (0 : Fin 2) * 256 + 1 * r.val = _
    omega
  have hl : laneOf (((cfg1.win 4).blk t).view.emb (ix2 r (pairCol j d)) 1) = d := Fin.ext (by
    show (win1_4.index t (1 : Fin 2) * 128 + 1 * (64 * j.val + d.val)) % 64 = d.val
    omega)
  exact (block_entry V c t _ _ j r d hn hs).trans (congrArg (Cert.Spec.ctx _ _ _ _ _ _) hl.symm)

/-- An index of the array is in point `t`'s block iff each coordinate is in the block's range on its axis. -/
theorem mem_blk1 (t : Fin cfg1.N) (i : S4096x768.Idx) :
    i ∈ ((cfg1.win 4).blk t).view.set ↔ ∀ a : Fin 2, win1_4.index t a * S256x128.size a ≤ (i a).val ∧ (i a).val < win1_4.index t a * S256x128.size a + S256x128.size a := by
  show i ∈ ((View.whole main_v7).slice (win1_4.rect t)).set ↔ _
  rw [View.set_slice_whole, Rect.mem_set_unit]
  exact Iff.rfl

/-- Entry (s, o) is in the block of the point with tile `s / 256` and pair `o / 128`, which writes back. -/
theorem covered1 (i : S4096x768.Idx) :
    ∃ t : Fin cfg1.N, (cfg1.win 4).flush t = true ∧ i ∈ ((cfg1.win 4).blk t).view.set := by
  have hi0 : (i 0).val < 4096 := (i 0).isLt
  have hi1 : (i 1).val < 768 := (i 1).isLt
  obtain ⟨t, ht⟩ := idx_onto1 ⟨(i 0).val / 256, by omega⟩ ⟨(i 1).val / 128, by omega⟩
  have q0 : win1_4.index t (0 : Fin 2) = (i 0).val / 256 := congrFun ht 0
  have q1 : win1_4.index t (1 : Fin 2) = (i 1).val / 128 := congrFun ht 1
  refine ⟨t, flush1_4 t, ?_⟩
  rw [mem_blk1]
  intro a
  match a with
  | ⟨0, _⟩ => show win1_4.index t (0 : Fin 2) * 256 ≤ (i 0).val ∧ (i 0).val < win1_4.index t (0 : Fin 2) * 256 + 256; omega
  | ⟨1, _⟩ => show win1_4.index t (1 : Fin 2) * 128 ≤ (i 1).val ∧ (i 1).val < win1_4.index t (1 : Fin 2) * 128 + 128; omega

/-- The context array after the region. -/
theorem arr1_4 (c : Dev nD) :
    ((dat1 (F := Ideal) V c).arrAt 4 cfg1.N : S4096x768.Idx → EReal)
      = fun i => Cert.Spec.ctx (heads (V c main_v5_0)) (heads (V c main_v5_1)) (heads (V c main_v5_2)) (maskRow (V c main_v6))
          (headOf (i 1)) (i 0) (laneOf (i 1)) :=
  (dat1 (F := Ideal) V c).arrAt_eq_of_cover 4 (ctxArr V c) (fun t _ => flushed_eq V c t) covered1

end Cert.KernelIdeal.Hand

end
-- ==== Proof.Glue.lean ====
/-
  The host operations around the two regions, read at an index over the extended reals.  The weight the projection
  region multiplies by is the three weights side by side (narrowing is the identity here) and its bias row the three
  biases end to end, so band `o` of the region's `x · w + b` is the projection by the `o`-th weight and bias; the
  activations, the mask and the result are only re-laid ([1,4096,768] ↔ [4096,768], [1,1,1,4096] → [1,4096]).
-/
import proofs.«428411_j45337674777147_3_alg».proof.Proof.Value0
import proofs.«428411_j45337674777147_3_alg».proof.Proof.Value1
import proofs.«428411_j45337674777147_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx

section
variable (x0 : S1x4096x768.Idx → EReal) (W0 W1 W2 : S768x768.Idx → EReal) (b0 b1 b2 : S768.Idx → EReal)

/-- The activations as the projection region reads them. -/
abbrev xFlat : S4096x768.Idx → EReal := shapeCast S4096x768 x0 shapeCasts_S1x4096x768_S4096x768
/-- The concatenated, narrowed weight. -/
abbrev wCat : S768x2304.Idx → EReal :=
  truncf (F := Ideal) .bf16 (concatenate S768x2304 1 [⟨S768x768, W0⟩, ⟨S768x768, W1⟩, ⟨S768x768, W2⟩] concatenates_S768x768_S768x768_S768x768_S768x2304_d1) bitsLt_bf16_f32
/-- The concatenated bias as a row. -/
abbrev bCat : S1x2304.Idx → EReal :=
  shapeCast S1x2304 (concatenate S2304 0 [⟨S768, b0⟩, ⟨S768, b1⟩, ⟨S768, b2⟩] concatenates_S768_S768_S768_S2304_d0) shapeCasts_S2304_S1x2304

/-! ## The three weights and the three biases as families over the band -/

/-- The `o`-th weight. -/
def wPick (o : Fin 3) : S768x768.Idx → EReal := match o with | ⟨0, _⟩ => W0 | ⟨1, _⟩ => W1 | ⟨2, _⟩ => W2
/-- The `o`-th bias. -/
def bPick (o : Fin 3) : S768.Idx → EReal := match o with | ⟨0, _⟩ => b0 | ⟨1, _⟩ => b1 | ⟨2, _⟩ => b2

/-- The three weights side by side are the family's pieces in order. -/
theorem wList_eq : ([⟨S768x768, W0⟩, ⟨S768x768, W1⟩, ⟨S768x768, W2⟩] : List ((s : Shape) × (s.Idx → EReal)))
    = List.ofFn fun o : Fin 3 => (⟨S768x768, wPick W0 W1 W2 o⟩ : (s : Shape) × (s.Idx → EReal)) := rfl
/-- The three biases end to end are the family's pieces in order. -/
theorem bList_eq : ([⟨S768, b0⟩, ⟨S768, b1⟩, ⟨S768, b2⟩] : List ((s : Shape) × (s.Idx → EReal)))
    = List.ofFn fun o : Fin 3 => (⟨S768, bPick b0 b1 b2 o⟩ : (s : Shape) × (s.Idx → EReal)) := rfl

/-! ## The three arrays the projection region reads, at an index -/

/-- Entry `(s, h)` of the re-laid activations is entry `(0, s, h)` of the activations. -/
theorem xFlat_apply (s : Fin 4096) (h : Fin 768) : xFlat x0 (ix2 s h) = x0 (ix3 (0 : Fin 1) s h) :=
  shapeCast_1ab_ab_apply x0 shapeCasts_S1x4096x768_S4096x768 s h

/-- Column `768·o + 64·n + d` of the concatenated weight is column `64·n + d` of the `o`-th weight: the column's
    quotient by 768 names the piece and its remainder the column within it; narrowing changes nothing here. -/
theorem wCat_apply (o : Fin 3) (h : Fin 768) (n : Fin 12) (d : Fin 64) :
    wCat W0 W1 W2 (ix2 h (bandCol o n d)) = wPick W0 W1 W2 o (ix2 h (Cert.Spec.col n d)) := by
  have ho := o.isLt; have hn := n.isLt; have hd := d.isLt
  show concatenate S768x2304 1 [⟨S768x768, W0⟩, ⟨S768x768, W1⟩, ⟨S768x768, W2⟩] concatenates_S768x768_S768x768_S768x768_S768x2304_d1
    (ix2 h (bandCol o n d)) = _
  exact concatenate_ofFn_apply (t := S768x2304) (s₁ := S768x768) 1 (wPick W0 W1 W2) concatenates_S768x768_S768x768_S768x768_S768x2304_d1
    rfl 768 rfl (ix2 h (bandCol o n d)) o
    (by show (o.val * 768 + n.val * 64 + d.val) / 768 = o.val; omega)
    (ix2 h (Cert.Spec.col n d))
    (by show n.val * 64 + d.val = (o.val * 768 + n.val * 64 + d.val) % 768; omega)
    (fun b => match b with
      | ⟨0, _⟩ => fun _ => rfl
      | ⟨1, _⟩ => fun hb => absurd rfl hb)

/-- Entry `(0, 768·o + 64·n + d)` of the bias row is entry `64·n + d` of the `o`-th bias. -/
theorem bCat_apply (o : Fin 3) (n : Fin 12) (d : Fin 64) :
    bCat b0 b1 b2 (ix2 (0 : Fin 1) (bandCol o n d)) = bPick b0 b1 b2 o (ix1 (Cert.Spec.col n d)) := by
  have ho := o.isLt; have hn := n.isLt; have hd := d.isLt
  refine (shapeCast_a_1a_apply _ shapeCasts_S2304_S1x2304 (0 : Fin 1) (bandCol o n d)).trans ?_
  exact concatenate_ofFn_apply (t := S2304) (s₁ := S768) 0 (bPick b0 b1 b2) concatenates_S768_S768_S768_S2304_d0
    rfl 768 rfl (ix1 (bandCol o n d)) o
    (by show (o.val * 768 + n.val * 64 + d.val) / 768 = o.val; omega)
    (ix1 (Cert.Spec.col n d))
    (by show n.val * 64 + d.val = (o.val * 768 + n.val * 64 + d.val) % 768; omega)
    (fun b => match b with
      | ⟨0, _⟩ => fun hb => absurd rfl hb)

/-- Band `o` is the projection by the `o`-th weight and bias: the sum over the 768 input features term by term, and the
    bias. -/
theorem band_eq (o : Fin 3) : heads (band (xFlat x0) (wCat W0 W1 W2) (bCat b0 b1 b2) o)
    = Cert.Spec.proj (fun s h => x0 (ix3 (0 : Fin 1) s h)) (fun h c => wPick W0 W1 W2 o (ix2 h c)) (fun c => bPick b0 b1 b2 o (ix1 c)) := by
  funext n s d
  show (∑ h : Fin 768, xFlat x0 (ix2 s h) * wCat W0 W1 W2 (ix2 h (bandCol o n d))) + bCat b0 b1 b2 (ix2 (0 : Fin 1) (bandCol o n d))
    = (∑ h : Fin 768, x0 (ix3 (0 : Fin 1) s h) * wPick W0 W1 W2 o (ix2 h (Cert.Spec.col n d))) + bPick b0 b1 b2 o (ix1 (Cert.Spec.col n d))
  rw [bCat_apply]
  exact congrArg (· + bPick b0 b1 b2 o (ix1 (Cert.Spec.col n d)))
    (Finset.sum_congr rfl fun h _ => by rw [xFlat_apply, wCat_apply])

/-- Band 0 is the projection by the first weight and bias. -/
theorem band_0 : heads (band (xFlat x0) (wCat W0 W1 W2) (bCat b0 b1 b2) 0)
    = Cert.Spec.proj (fun s h => x0 (ix3 (0 : Fin 1) s h)) (fun h o => W0 (ix2 h o)) (fun o => b0 (ix1 o)) :=
  band_eq x0 W0 W1 W2 b0 b1 b2 0
/-- Band 1 is the projection by the second weight and bias. -/
theorem band_1 : heads (band (xFlat x0) (wCat W0 W1 W2) (bCat b0 b1 b2) 1)
    = Cert.Spec.proj (fun s h => x0 (ix3 (0 : Fin 1) s h)) (fun h o => W1 (ix2 h o)) (fun o => b1 (ix1 o)) :=
  band_eq x0 W0 W1 W2 b0 b1 b2 1
/-- Band 2 is the projection by the third weight and bias. -/
theorem band_2 : heads (band (xFlat x0) (wCat W0 W1 W2) (bCat b0 b1 b2) 2)
    = Cert.Spec.proj (fun s h => x0 (ix3 (0 : Fin 1) s h)) (fun h o => W2 (ix2 h o)) (fun o => b2 (ix1 o)) :=
  band_eq x0 W0 W1 W2 b0 b1 b2 2
end

/-- The mask re-laid as a row is the mask. -/
theorem maskRow_flat (x1 : S1x1x1x4096.Idx → EReal) :
    maskRow (shapeCast S1x4096 x1 shapeCasts_S1x1x1x4096_S1x4096) = fun t => x1 (ix4 (0 : Fin 1) (0 : Fin 1) (0 : Fin 1) t) := by
  funext t
  exact shapeCast_apply x1 shapeCasts_S1x1x1x4096_S1x4096 (ix2 (0 : Fin 1) t) (ix4 (0 : Fin 1) (0 : Fin 1) (0 : Fin 1) t) (by
    rw [Shape.rowMajor_val_four, Shape.rowMajor_val_two]
    show ((0 * 1 + 0) * 1 + 0) * 4096 + t.val = 0 * 4096 + t.val
    omega)

/-- The result re-laid: entry (0, s, o) of the program's result is entry (s, o) of the attention region's array. -/
theorem result_unflat (a : S4096x768.Idx → EReal) (i : S1x4096x768.Idx) :
    shapeCast S1x4096x768 a shapeCasts_S4096x768_S1x4096x768 i = a (ix2 (i 1) (i 2)) :=
  (congrArg (shapeCast S1x4096x768 a shapeCasts_S4096x768_S1x4096x768) (eq_ix3 i)).trans
    (shapeCast_ab_1ab_apply a shapeCasts_S4096x768_S1x4096x768 (i 0) (i 1) (i 2))

end Cert.KernelIdeal.Hand

end
-- ==== Proof.Value.lean ====
/-
  The kernel program's result at the extended reals, as the attention function of Spec.lean of its eight arguments.
  The last contents of the result buffer are followed back through the program's items: the result is the attention
  region's output array re-laid; that array is the context function of the three head-major arrays the projection
  region left and the mask row; each of those is a band of `activations · concatenated weight + concatenated bias`,
  which is the projection by the band's own weight and bias.
-/
import proofs.«428411_j45337674777147_3_alg».proof.Proof.Run
import proofs.«428411_j45337674777147_3_alg».proof.Proof.Value0
import proofs.«428411_j45337674777147_3_alg».proof.Proof.Value1
import proofs.«428411_j45337674777147_3_alg».proof.Proof.Glue
import proofs.«428411_j45337674777147_3_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem

/-! ## What each host stretch writes, from any contents `X` -/

section Host
variable (X : Valuation τ sig (Elt Ideal))

theorem host0_v0 : (StableHlo.after hostOps0 X (Proc.devRef .tc main_v0) : S4096x768.Idx → EReal) = xFlat (X (Proc.devRef .tc main_arg0)) := by
  after_results; rfl
theorem host0_v2 : (StableHlo.after hostOps0 X (Proc.devRef .tc main_v2) : S768x2304.Idx → EReal)
    = wCat (X (Proc.devRef .tc main_arg2)) (X (Proc.devRef .tc main_arg4)) (X (Proc.devRef .tc main_arg6)) := by
  after_results; rfl
theorem host0_v4 : (StableHlo.after hostOps0 X (Proc.devRef .tc main_v4) : S1x2304.Idx → EReal)
    = bCat (X (Proc.devRef .tc main_arg3)) (X (Proc.devRef .tc main_arg5)) (X (Proc.devRef .tc main_arg7)) := by
  after_results; rfl
theorem host1_v6 : (StableHlo.after hostOps1 X (Proc.devRef .tc main_v6) : S1x4096.Idx → EReal)
    = shapeCast S1x4096 (X (Proc.devRef .tc main_arg1)) shapeCasts_S1x1x1x4096_S1x4096 := by
  after_results; rfl
theorem host2_v8 : (StableHlo.after hostOps2 X (Proc.devRef .tc main_v8) : S1x4096x768.Idx → EReal)
    = shapeCast S1x4096x768 (X (Proc.devRef .tc main_v7)) shapeCasts_S4096x768_S1x4096x768 := by
  after_results; rfl
end Host

variable (m : (ℓ : Loc nD τ sig) → Buf (Elt Ideal) ℓ) (ρ : Dev nD → PrngReg)

/-! ## The arrays the attention region finds -/

/-- An output array of the projection region is still there when the attention region is entered. -/
theorem U3_of_arr0 (c : Dev nD) (w : Fin cfg0.W) (hw : Pipeline.arrRef spec0 w ∉ hostOps1_W) :
    U3 m ρ c (Pipeline.arrRef spec0 w) = (dat0 (U1 m ρ) c).arrAt w cfg0.N :=
  (StableHlo.after_of_writes_sub hostOps1 _ hostOps1_writes hw).trans (W2_arr m ρ c w)

/-- The three bands the projection region leaves, as the region's own function of what it found. -/
theorem U3_q (c : Dev nD) : (U3 m ρ c main_v5_0 : S12x4096x64.Idx → EReal)
    = band (xFlat (m ((c : Thread nD τ).loc main_arg0)))
        (wCat (m ((c : Thread nD τ).loc main_arg2)) (m ((c : Thread nD τ).loc main_arg4)) (m ((c : Thread nD τ).loc main_arg6)))
        (bCat (m ((c : Thread nD τ).loc main_arg3)) (m ((c : Thread nD τ).loc main_arg5)) (m ((c : Thread nD τ).loc main_arg7))) 0 := by
  refine (U3_of_arr0 m ρ c 3 (by decide)).trans ((arr0_3 (U1 m ρ) c).trans ?_)
  show band (StableHlo.after hostOps0 (W0 m ρ c) (Proc.devRef .tc main_v0)) (StableHlo.after hostOps0 (W0 m ρ c) (Proc.devRef .tc main_v2))
    (StableHlo.after hostOps0 (W0 m ρ c) (Proc.devRef .tc main_v4)) 0 = _
  rw [host0_v0, host0_v2, host0_v4]
theorem U3_k (c : Dev nD) : (U3 m ρ c main_v5_1 : S12x4096x64.Idx → EReal)
    = band (xFlat (m ((c : Thread nD τ).loc main_arg0)))
        (wCat (m ((c : Thread nD τ).loc main_arg2)) (m ((c : Thread nD τ).loc main_arg4)) (m ((c : Thread nD τ).loc main_arg6)))
        (bCat (m ((c : Thread nD τ).loc main_arg3)) (m ((c : Thread nD τ).loc main_arg5)) (m ((c : Thread nD τ).loc main_arg7))) 1 := by
  refine (U3_of_arr0 m ρ c 4 (by decide)).trans ((arr0_4 (U1 m ρ) c).trans ?_)
  show band (StableHlo.after hostOps0 (W0 m ρ c) (Proc.devRef .tc main_v0)) (StableHlo.after hostOps0 (W0 m ρ c) (Proc.devRef .tc main_v2))
    (StableHlo.after hostOps0 (W0 m ρ c) (Proc.devRef .tc main_v4)) 1 = _
  rw [host0_v0, host0_v2, host0_v4]
theorem U3_v (c : Dev nD) : (U3 m ρ c main_v5_2 : S12x4096x64.Idx → EReal)
    = band (xFlat (m ((c : Thread nD τ).loc main_arg0)))
        (wCat (m ((c : Thread nD τ).loc main_arg2)) (m ((c : Thread nD τ).loc main_arg4)) (m ((c : Thread nD τ).loc main_arg6)))
        (bCat (m ((c : Thread nD τ).loc main_arg3)) (m ((c : Thread nD τ).loc main_arg5)) (m ((c : Thread nD τ).loc main_arg7))) 2 := by
  refine (U3_of_arr0 m ρ c 5 (by decide)).trans ((arr0_5 (U1 m ρ) c).trans ?_)
  show band (StableHlo.after hostOps0 (W0 m ρ c) (Proc.devRef .tc main_v0)) (StableHlo.after hostOps0 (W0 m ρ c) (Proc.devRef .tc main_v2))
    (StableHlo.after hostOps0 (W0 m ρ c) (Proc.devRef .tc main_v4)) 2 = _
  rw [host0_v0, host0_v2, host0_v4]

/-- The mask row the attention region finds is the mask argument re-laid. -/
theorem U3_mask (c : Dev nD) : (U3 m ρ c main_v6 : S1x4096.Idx → EReal)
    = shapeCast S1x4096 (m ((c : Thread nD τ).loc main_arg1)) shapeCasts_S1x1x1x4096_S1x4096 := by
  refine (host1_v6 (W2 m ρ c)).trans ?_
  have e : W1 m ρ c (Proc.devRef .tc main_arg1) = m ((c : Thread nD τ).loc main_arg1) :=
    StableHlo.after_of_writes_sub hostOps0 _ hostOps0_writes (by decide)
  rw [W2_of_ne m ρ c main_arg1 (by decide), e]

/-! ## The result -/

/-- The program's result on core `c`: the attention function of the eight arguments. -/
def G (c : Dev nD) : S1x4096x768.Idx → EReal := fun i =>
  Cert.Spec.out (fun s h => m ((c : Thread nD τ).loc main_arg0) (ix3 (0 : Fin 1) s h)) (fun t => m ((c : Thread nD τ).loc main_arg1) (ix4 (0 : Fin 1) (0 : Fin 1) (0 : Fin 1) t))
      (fun h o => m ((c : Thread nD τ).loc main_arg2) (ix2 h o)) (fun o => m ((c : Thread nD τ).loc main_arg3) (ix1 o)) (fun h o => m ((c : Thread nD τ).loc main_arg4) (ix2 h o)) (fun o => m ((c : Thread nD τ).loc main_arg5) (ix1 o))
      (fun h o => m ((c : Thread nD τ).loc main_arg6) (ix2 h o)) (fun o => m ((c : Thread nD τ).loc main_arg7) (ix1 o)) (headOf (i 2)) (i 1) (laneOf (i 2))

/-- The last contents of the result buffer are that function. -/
theorem result_eq (c : Dev nD) : (W5 m ρ c (Proc.devRef .tc main_v8) : S1x4096x768.Idx → EReal) = G m c := by
  refine (host2_v8 (W4 m ρ c)).trans ?_
  funext i
  rw [result_unflat]
  have e : (W4 m ρ c (Proc.devRef .tc main_v7) : S4096x768.Idx → EReal) = (dat1 (U3 m ρ) c).arrAt 4 cfg1.N := W4_arr m ρ c 4
  rw [e, arr1_4 (U3 m ρ) c, U3_q, U3_k, U3_v, U3_mask, band_0, band_1, band_2, maskRow_flat]
  rfl

/-- THE RUN, read: every weakly fair execution terminates with the result at `G` and the arguments unchanged. -/
theorem run_value : θ_run defs (onTc (τ := τ) (main (F := Ideal))) ⟨m, fun _ => 0, ρ⟩ (fun r => ∀ c : Dev nD,
      r.2.mem ((c.tc : Thread nD τ).loc main_v8) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v8 (by decide))).trans (result_eq m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c)⟩) (run_all m ρ)

end Cert.KernelIdeal.Hand

end
-- ==== Proof.RefValue.lean ====
/-
  The reference's result, at the extended reals, is the attention function of Spec.lean of its eight arguments:
  three projections of the activations re-laid head-major, scores divided by `8` (which is the product with `2⁻³`)
  plus the mask, the row softmax with its maximum taken from `−∞` (once by the reduction, once more against `−∞`,
  which changes nothing), the weights' combination of the value rows, and the heads laid side by side.
-/
import proofs.«428411_j45337674777147_3_alg».proof.Proof.Gen.ReferenceIdeal.Read
import proofs.«428411_j45337674777147_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The head of column `o` of a 768-wide row, and the lane within it. -/
def headOf (o : Fin 768) : Fin 12 := ⟨o.val / 64, by have := o.isLt; omega⟩
def laneOf (o : Fin 768) : Fin 64 := ⟨o.val % 64, Nat.mod_lt _ (by norm_num)⟩

/-- The arguments read by coordinates. -/
abbrev acts (x0 : S1x4096x768.Idx → EReal) : Fin 4096 → Fin 768 → EReal := fun s h => x0 (ix3 (0 : Fin 1) s h)
abbrev mat (w : S768x768.Idx → EReal) : Fin 768 → Fin 768 → EReal := fun h o => w (ix2 h o)
abbrev vec (b : S768.Idx → EReal) : Fin 768 → EReal := fun o => b (ix1 o)
abbrev maskOf (x1 : S1x1x1x4096.Idx → EReal) : Fin 4096 → EReal :=
  fun t => x1 (ix4 (0 : Fin 1) (0 : Fin 1) (0 : Fin 1) t)

/-! ## The three projections -/

/-- Head `n`, position `s`, lane `d` of the head-major layout is row `s`, column `64·n + d` of the flat one. -/
theorem idx_headMajor (n : Fin 12) (s : Fin 4096) (d : Fin 64) :
    idx_main_v4 (idx_main_v5 (ix4 (0 : Fin 1) n s d)) = ix3 (0 : Fin 1) s (Cert.Spec.col n d) :=
  funext fun a => Fin.ext (by
    have hn := n.isLt; have hs := s.isLt; have hd := d.isLt
    match a with
    | ⟨0, _⟩ => rfl
    | ⟨1, _⟩ => show (((0 * 4096 + s.val) * 12 + n.val) * 64 + d.val) / 768 % 4096 = s.val; omega
    | ⟨2, _⟩ => show (((0 * 4096 + s.val) * 12 + n.val) * 64 + d.val) % 768 = n.val * 64 + d.val; omega)

theorem lidx_proj (s : Fin 4096) (c : Fin 768) (k : Fin 768) :
    lidx_main_v0 (ix3 (0 : Fin 1) s c) k = ix3 (0 : Fin 1) s k :=
  funext fun a => Fin.ext (by match a with | ⟨0, _⟩ => rfl | ⟨1, _⟩ => rfl | ⟨2, _⟩ => rfl)

theorem ridx_proj (s : Fin 4096) (c : Fin 768) (k : Fin 768) :
    ridx_main_v0 (ix3 (0 : Fin 1) s c) k = ix2 k c :=
  funext fun a => Fin.ext (by match a with | ⟨0, _⟩ => rfl | ⟨1, _⟩ => rfl)

theorem idx_bias (s : Fin 4096) (c : Fin 768) :
    idx_main_v1 (idx_main_v2 (ix3 (0 : Fin 1) s c)) = ix1 c :=
  funext fun a => Fin.ext (by match a with | ⟨0, _⟩ => rfl)

/-- A projection read head-major: the row of activations against the weight column, plus the bias there. -/
theorem proj_eq (x0 : S1x4096x768.Idx → EReal) (w : S768x768.Idx → EReal) (b : S768.Idx → EReal)
    (n : Fin 12) (s : Fin 4096) (d : Fin 64) :
    val_main_v5 (F := Ideal) x0 w b (ix4 (0 : Fin 1) n s d)
      = Cert.Spec.proj (acts x0) (mat w) (vec b) n s d := by
  rw [val_main_v5_apply, val_main_v4_apply, idx_headMajor, val_main_v3_apply, val_main_v0_apply, val_main_v2_apply,
    val_main_v1_apply, idx_bias]
  simp only [lidx_proj, ridx_proj, Ideal.addf_def]
  rfl

/-- The key and value projections are the query projection taken with other weights. -/
theorem keys_eq (x0 : S1x4096x768.Idx → EReal) (w : S768x768.Idx → EReal) (b : S768.Idx → EReal) :
    val_main_v11 (F := Ideal) x0 w b = val_main_v5 (F := Ideal) x0 w b := rfl
theorem values_eq (x0 : S1x4096x768.Idx → EReal) (w : S768x768.Idx → EReal) (b : S768.Idx → EReal) :
    val_main_v17 (F := Ideal) x0 w b = val_main_v5 (F := Ideal) x0 w b := rfl

/-! ## Scores -/

theorem lidx_score (n : Fin 12) (s t : Fin 4096) (k : Fin 64) :
    lidx_main_v18 (ix4 (0 : Fin 1) n s t) k = ix4 (0 : Fin 1) n s k :=
  funext fun a => Fin.ext (by match a with | ⟨0, _⟩ => rfl | ⟨1, _⟩ => rfl | ⟨2, _⟩ => rfl | ⟨3, _⟩ => rfl)

theorem ridx_score (n : Fin 12) (s t : Fin 4096) (k : Fin 64) :
    ridx_main_v18 (ix4 (0 : Fin 1) n s t) k = ix4 (0 : Fin 1) n t k :=
  funext fun a => Fin.ext (by match a with | ⟨0, _⟩ => rfl | ⟨1, _⟩ => rfl | ⟨2, _⟩ => rfl | ⟨3, _⟩ => rfl)

theorem idx_mask (n : Fin 12) (s t : Fin 4096) :
    idx_main_v21 (ix4 (0 : Fin 1) n s t) = ix4 (0 : Fin 1) (0 : Fin 1) (0 : Fin 1) t :=
  funext fun a => Fin.ext (by match a with | ⟨0, _⟩ => rfl | ⟨1, _⟩ => rfl | ⟨2, _⟩ => rfl | ⟨3, _⟩ => rfl)

section Attention
variable (x0 : S1x4096x768.Idx → EReal) (x1 : S1x1x1x4096.Idx → EReal) (x2 : S768x768.Idx → EReal) (x3 : S768.Idx → EReal)
  (x4 : S768x768.Idx → EReal) (x5 : S768.Idx → EReal) (x6 : S768x768.Idx → EReal) (x7 : S768.Idx → EReal)

/-- The query–key product over the lanes, divided by eight, plus the mask of the key position. -/
theorem score_eq (n : Fin 12) (s t : Fin 4096) :
    val_main_v22 (F := Ideal) x0 x1 x2 x3 x4 x5 (ix4 (0 : Fin 1) n s t)
      = Cert.Spec.score (Cert.Spec.proj (acts x0) (mat x2) (vec x3)) (Cert.Spec.proj (acts x0) (mat x4) (vec x5)) (maskOf x1) n s t := by
  rw [val_main_v22_apply, val_main_v20_apply, val_main_v18_apply, val_main_v19_apply, val_main_cst_apply,
    val_main_v21_apply, idx_mask, keys_eq]
  simp only [lidx_score, ridx_score, proj_eq, Ideal.addf_def, Ideal.hostDivf_def, Ideal.ofBits_def]
  rw [Cert.Spec.div_eight]
  rfl

/-! ## The row maximum -/

/-- A row's result index with the key position put back. -/
theorem lift_row (h : S1x12x4096x4096.Reduces [3] S1x12x4096) (n : Fin 12) (s : Fin 4096)
    (k : Fin (S1x12x4096x4096.size 3)) :
    h.lift (ix3 (0 : Fin 1) n s) k = ix4 (0 : Fin 1) n s (⟨k.val, k.isLt⟩ : Fin 4096) :=
  funext fun c => Fin.ext (by match c with | ⟨0, _⟩ => rfl | ⟨1, _⟩ => rfl | ⟨2, _⟩ => rfl | ⟨3, _⟩ => rfl)

/-- A maximum-reduction over the last axis, at a row, is the fold of `max` over the row from the initial value. -/
theorem reduce_max_row (y : S1x12x4096x4096.Idx → EReal) (init : S_.Idx → EReal) (n : Fin 12) (s : Fin 4096) :
    Host.reduce (FloatOps.maximumf (F := Ideal) (φ := .f32)) y init reducesTo_S1x12x4096x4096_S1x12x4096_d3 h_S_ (ix3 (0 : Fin 1) n s)
      = (Finset.univ : Finset (Fin 4096)).fold max (init (Shape.Idx.first h_S_)) (fun t => y (ix4 (0 : Fin 1) n s t)) := by
  have h : S1x12x4096x4096.Reduces [3] S1x12x4096 := by decide
  rw [Host.reduce_eq_fold_single (FloatOps.maximumf (F := Ideal) (φ := .f32)) y init reducesTo_S1x12x4096x4096_S1x12x4096_d3 h h_S_]
  have hf : (y ∘ h.lift (ix3 (0 : Fin 1) n s)) = fun t : Fin 4096 => y (ix4 (0 : Fin 1) n s t) :=
    funext fun k => congrArg y (lift_row h n s k)
  exact congrArg (fun f => Finset.fold max (init (Shape.Idx.first h_S_)) f (Finset.univ : Finset (Fin 4096))) hf

/-- The row maximum: the reduction from `−∞`, then once more against `−∞`. -/
theorem rowMax_eq (n : Fin 12) (s : Fin 4096) :
    val_main_v25 (F := Ideal) x0 x1 x2 x3 x4 x5 (ix3 (0 : Fin 1) n s)
      = Cert.Spec.rowMax (Cert.Spec.proj (acts x0) (mat x2) (vec x3)) (Cert.Spec.proj (acts x0) (mat x4) (vec x5)) (maskOf x1) n s := by
  rw [val_main_v25_apply, val_main_v24_apply, val_main_cst_1_apply]
  unfold val_main_v23
  rw [reduce_max_row, val_main_cst_0_apply]
  simp only [score_eq, Ideal.maximumf_def, Ideal.ofBits_def]
  exact Cert.Spec.max_fold_max _ _ _

end Attention

section Softmax
variable (x0 : S1x4096x768.Idx → EReal) (x1 : S1x1x1x4096.Idx → EReal) (x2 : S768x768.Idx → EReal) (x3 : S768.Idx → EReal)
  (x4 : S768x768.Idx → EReal) (x5 : S768.Idx → EReal) (x6 : S768x768.Idx → EReal) (x7 : S768.Idx → EReal)

/-! ## The softmax of a row -/

/-- A row statistic broadcast back along the keys is read at the row. -/
theorem idx_rowOf (n : Fin 12) (s t : Fin 4096) :
    idx_main_v26 (idx_main_v27 (ix4 (0 : Fin 1) n s t)) = ix3 (0 : Fin 1) n s :=
  funext fun a => Fin.ext (by match a with | ⟨0, _⟩ => rfl | ⟨1, _⟩ => rfl | ⟨2, _⟩ => rfl)

theorem idx_rowOf' (n : Fin 12) (s t : Fin 4096) :
    idx_main_v31 (idx_main_v32 (ix4 (0 : Fin 1) n s t)) = ix3 (0 : Fin 1) n s :=
  funext fun a => Fin.ext (by match a with | ⟨0, _⟩ => rfl | ⟨1, _⟩ => rfl | ⟨2, _⟩ => rfl)

theorem idx_keys (n : Fin 12) (s : Fin 4096) (k : Fin 4096) :
    idx_main_v30 (ix3 (0 : Fin 1) n s) k = ix4 (0 : Fin 1) n s k :=
  funext fun a => Fin.ext (by match a with | ⟨0, _⟩ => rfl | ⟨1, _⟩ => rfl | ⟨2, _⟩ => rfl | ⟨3, _⟩ => rfl)

/-- The exponential of a score less its row's maximum. -/
theorem ex_eq (n : Fin 12) (s t : Fin 4096) :
    val_main_v29 (F := Ideal) x0 x1 x2 x3 x4 x5 (ix4 (0 : Fin 1) n s t)
      = Cert.Spec.ex (Cert.Spec.proj (acts x0) (mat x2) (vec x3)) (Cert.Spec.proj (acts x0) (mat x4) (vec x5)) (maskOf x1) n s t := by
  rw [val_main_v29_apply, val_main_v28_apply, val_main_v27_apply, val_main_v26_apply, idx_rowOf, score_eq, rowMax_eq]
  rfl

/-- The row's sum of exponentials: the reduction from zero. -/
theorem rowSum_eq (n : Fin 12) (s : Fin 4096) :
    val_main_v30 (F := Ideal) x0 x1 x2 x3 x4 x5 (ix3 (0 : Fin 1) n s)
      = Cert.Spec.rowSum (Cert.Spec.proj (acts x0) (mat x2) (vec x3)) (Cert.Spec.proj (acts x0) (mat x4) (vec x5)) (maskOf x1) n s := by
  rw [val_main_v30_apply, val_main_cst_2_apply, Ideal.ofBits_def, Ideal.ofBits_zero_f32, zero_add]
  simp only [idx_keys, ex_eq]
  rfl

/-- The softmax weight. -/
theorem prob_eq (n : Fin 12) (s t : Fin 4096) :
    val_main_v33 (F := Ideal) x0 x1 x2 x3 x4 x5 (ix4 (0 : Fin 1) n s t)
      = Cert.Spec.prob (Cert.Spec.proj (acts x0) (mat x2) (vec x3)) (Cert.Spec.proj (acts x0) (mat x4) (vec x5)) (maskOf x1) n s t := by
  rw [val_main_v33_apply, val_main_v32_apply, val_main_v31_apply, idx_rowOf', ex_eq, rowSum_eq]
  rfl

/-! ## The context and the result's layout -/

theorem lidx_ctx (n : Fin 12) (s : Fin 4096) (d : Fin 64) (k : Fin 4096) :
    lidx_main_v34 (ix4 (0 : Fin 1) n s d) k = ix4 (0 : Fin 1) n s k :=
  funext fun a => Fin.ext (by match a with | ⟨0, _⟩ => rfl | ⟨1, _⟩ => rfl | ⟨2, _⟩ => rfl | ⟨3, _⟩ => rfl)

theorem ridx_ctx (n : Fin 12) (s : Fin 4096) (d : Fin 64) (k : Fin 4096) :
    ridx_main_v34 (ix4 (0 : Fin 1) n s d) k = ix4 (0 : Fin 1) n k d :=
  funext fun a => Fin.ext (by match a with | ⟨0, _⟩ => rfl | ⟨1, _⟩ => rfl | ⟨2, _⟩ => rfl | ⟨3, _⟩ => rfl)

/-- The weights' combination of the value rows. -/
theorem ctx_eq (n : Fin 12) (s : Fin 4096) (d : Fin 64) :
    val_main_v34 (F := Ideal) x0 x1 x2 x3 x4 x5 x6 x7 (ix4 (0 : Fin 1) n s d)
      = Cert.Spec.ctx (Cert.Spec.proj (acts x0) (mat x2) (vec x3)) (Cert.Spec.proj (acts x0) (mat x4) (vec x5))
          (Cert.Spec.proj (acts x0) (mat x6) (vec x7)) (maskOf x1) n s d := by
  rw [val_main_v34_apply, values_eq]
  simp only [lidx_ctx, ridx_ctx, prob_eq, proj_eq]
  rfl

/-- Column `o` of row `s` of the flat result is lane `o mod 64` of head `o / 64` at position `s`. -/
theorem idx_flat (a : Fin 1) (s : Fin 4096) (o : Fin 768) :
    idx_main_v35 (idx_main_v36 (ix3 a s o)) = ix4 (0 : Fin 1) (headOf o) s (laneOf o) :=
  funext fun c => Fin.ext (by
    have ha := a.isLt; have hs := s.isLt; have ho := o.isLt
    match c with
    | ⟨0, _⟩ => rfl
    | ⟨1, _⟩ => show ((a.val * 4096 + s.val) * 768 + o.val) / 64 % 12 = o.val / 64; omega
    | ⟨2, _⟩ => show ((a.val * 4096 + s.val) * 768 + o.val) / 768 % 4096 = s.val; omega
    | ⟨3, _⟩ => show ((a.val * 4096 + s.val) * 768 + o.val) % 64 = o.val % 64; omega)

end Softmax

/-- The reference's result is the attention function of its arguments, index by index. -/
theorem ref_eq (x0 : S1x4096x768.Idx → EReal) (x1 : S1x1x1x4096.Idx → EReal) (x2 : S768x768.Idx → EReal) (x3 : S768.Idx → EReal)
    (x4 : S768x768.Idx → EReal) (x5 : S768.Idx → EReal) (x6 : S768x768.Idx → EReal) (x7 : S768.Idx → EReal) :
    (val_main_v36 (F := Ideal) x0 x1 x2 x3 x4 x5 x6 x7 : S1x4096x768.Idx → EReal)
      = fun i => Cert.Spec.out (fun s h => x0 (ix3 (0 : Fin 1) s h)) (fun t => x1 (ix4 (0 : Fin 1) (0 : Fin 1) (0 : Fin 1) t))
          (fun h o => x2 (ix2 h o)) (fun o => x3 (ix1 o)) (fun h o => x4 (ix2 h o)) (fun o => x5 (ix1 o))
          (fun h o => x6 (ix2 h o)) (fun o => x7 (ix1 o)) (headOf (i 2)) (i 1) (laneOf (i 2)) := by
  funext i
  obtain ⟨a, s, o, rfl⟩ : ∃ (a : Fin 1) (s : Fin 4096) (o : Fin 768), i = ix3 a s o := ⟨i 0, i 1, i 2, eq_ix3 i⟩
  rw [val_main_v36_apply, val_main_v35_apply, idx_flat, ctx_eq]
  rfl

end Cert.ReferenceIdeal.RefValue

end
-- ==== Proof.lean ====
/-
  The certificate of the BERT self-attention kernel against its jnp reference, over the extended reals.

  The kernel program is two kernel regions among host operations: a projection region that forms the three
  head-major projections `x · [Wq | Wk | Wv] + [bq | bk | bv]` of the activations, eight row blocks of 512, and an
  attention region that, per pair of heads and per block of 256 query rows, forms the scaled masked scores, their row
  softmax and the weights' combination of the value rows.  The reference computes the same function by whole-array
  operations: three products with the weights, the heads split by a re-layout, one batched product for the scores
  divided by `8`, `softmax`, one batched product with the values, and the heads merged back.

  Three of the five claims say that a program runs to the end without a fault and leaves its arguments as it found
  them: for the kernel program, read at the machine's words and at the extended reals, this is the run of
  Proof/Run.lean (its two copies differ in the namespace only); for the reference it is its generated run.  The ideal
  pass rewrote nothing, so there is nothing to preserve.  The value claim: at the extended reals both programs end
  with the attention function of Proof/Spec.lean of the same arguments — the kernel program by following its result
  back through the regions' final arrays (Proof/Value.lean over Proof/Value0.lean, Proof/Value1.lean and
  Proof/Glue.lean), the reference operation by operation (Proof/RefValue.lean).  A change of float format is the
  identity there, a product accumulated block by block is the product, and the kernel's scale `2⁻³` is the
  reference's division by `8` on every extended real, so no finiteness of the inputs is used.
-/
import proofs.«428411_j45337674777147_3_alg».proof.Defs
import proofs.«428411_j45337674777147_3_alg».proof.Proof.Gen.Kernel
import proofs.«428411_j45337674777147_3_alg».proof.Proof.Gen.KernelIdeal
import proofs.«428411_j45337674777147_3_alg».proof.Proof.Gen.ReferenceIdeal
import proofs.«428411_j45337674777147_3_alg».proof.Proof.Gen.ReferenceIdeal.Run
import proofs.«428411_j45337674777147_3_alg».proof.Proof.Gen.ReferenceIdeal.Read
import proofs.«428411_j45337674777147_3_alg».proof.Proof.Gen.Pre_finite_inputs
import proofs.«428411_j45337674777147_3_alg».proof.Proof.KRun
import proofs.«428411_j45337674777147_3_alg».proof.Proof.Value
import proofs.«428411_j45337674777147_3_alg».proof.Proof.RefValue
import Idealize.ShloMosaic.Adequacy
import Idealize.ShloMosaic.Init

noncomputable section

namespace Cert.Proof

open Idealize.ShloMosaic Idealize.SL.Sem

/-- The kernel program at the machine's words runs to the end and leaves its arguments unchanged. -/
theorem frame_words : Cert.frame_Kernel := fun m ρ _ => Cert.Kernel.Hand.frame (F := Bits) m ρ

/-- The same program read at the extended reals. -/
theorem frame_ideal : Cert.frame_KernelIdeal := fun m ρ _ => Cert.KernelIdeal.Hand.frame (F := Ideal) m ρ

/-- The reference runs to the end and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Column `o`'s head and lane are one pair of numbers however they are named. -/
theorem headOf_eq (o : Fin 768) : Cert.ReferenceIdeal.RefValue.headOf o = Cert.KernelIdeal.Hand.headOf o := rfl
theorem laneOf_eq (o : Fin 768) : Cert.ReferenceIdeal.RefValue.laneOf o = Cert.KernelIdeal.Hand.laneOf o := rfl

/-- From memories that agree on the arguments both programs end with the attention function of those arguments. -/
theorem algebraic : Cert.algebraic_KernelIdeal_ReferenceIdeal := by
  intro m ρ m' ρ' _ hagree
  refine ⟨fun c => Cert.KernelIdeal.Hand.G m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v36_eq, Cert.ReferenceIdeal.RefValue.ref_eq, h0, h1, h2, h3, h4, h5, h6, h7]
  funext i
  simp only [headOf_eq, laneOf_eq]
  rfl

theorem claim : Cert.Claim :=
  ⟨Cert.Kernel.Gen.facts, Cert.KernelIdeal.Gen.facts, Cert.ReferenceIdeal.Gen.facts, Cert.Pre_finite_inputs.Gen.facts,
    frame_words, frame_ideal, frame_reference, preserves, algebraic⟩

end Cert.Proof

end
